-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S256x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S32x128 .f32) (main_arg5 : FVec F S128 .f32) (main_arg6 : FVec F S256x128 .f32) (main_arg7 : FVec F S128 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S800000x32 .f32) (main_arg2 : FVec F S128x128 .f32) (main_arg3 : FVec F S128 .f32) (main_arg4 : FVec F S32x128 .f32) (main_arg5 : FVec F S128 .f32) (main_arg6 : FVec F S256x128 .f32) (main_arg7 : FVec F S128 .f32) (main_arg8 : FVec F S256x128 .f32) (main_arg9 : FVec F S128 .f32) (main_arg10 : FVec F S128x1 .f32) (main_arg11 : FVec F S1 .f32) (main_arg12 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S800000x128 : Shape := ⟨2, ![800000, 128]⟩
abbrev S8000x32 : Shape := ⟨2, ![8000, 32]⟩
abbrev S8000x128 : Shape := ⟨2, ![8000, 128]⟩
abbrev S_ : Shape := ⟨0, ![]⟩
abbrev S800000x1 : Shape := ⟨2, ![800000, 1]⟩
abbrev S50000x1 : Shape := ⟨2, ![50000, 1]⟩
abbrev S1x1 : Shape := ⟨2, ![1, 1]⟩
abbrev S50000 : Shape := ⟨1, ![50000]⟩

abbrev nBuf : Space → Nat
  | .hbm => 80
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S128x128, .f32⟩
  | .hbm, ⟨3, _⟩ => ⟨S128, .f32⟩
  | .hbm, ⟨4, _⟩ => ⟨S32x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S1x128, .f32⟩
  | .hbm, ⟨18, _⟩ => ⟨S50000x128, .bf16⟩
  | .hbm, ⟨19, _⟩ => ⟨S1x128, .f32⟩
  | .hbm, ⟨20, _⟩ => ⟨S800000x128, .bf16⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .bf16⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .bf16⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S50000x128, .f32⟩
  | .hbm, ⟨62, _⟩ => ⟨S50000x1, .f32⟩
  | .hbm, ⟨63, _⟩ => ⟨S1x1, .f32⟩
  | .hbm, ⟨64, _⟩ => ⟨S50000x1, .f32⟩
  | .hbm, ⟨65, _⟩ => ⟨S50000x1, .f32⟩
  | .hbm, ⟨66, _⟩ => ⟨S50000, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S50000, .f32⟩
  | .hbm, ⟨79, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S8000x32, .f32⟩
  | .local _ .vmem, ⟨7, _⟩ => ⟨S8000x32, .f32⟩
  | .local _ .vmem, ⟨8, _⟩ => ⟨S32x128, .f32⟩
  | .local _ .vmem, ⟨9, _⟩ => ⟨S1x128, .f32⟩
  | .local _ .vmem, ⟨10, _⟩ => ⟨S8000x128, .bf16⟩
  | .local _ .vmem, ⟨11, _⟩ => ⟨S8000x128, .bf16⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S8000x32_S8000x32_0_0 : ∀ a, (![0, 0] : Fin 2 → Nat) a + S8000x32.size a ≤ S8000x32.size a
  h_S8000x32 : 0 < S8000x32.numel
  inb_S32x128_S32x128_0_0 : ∀ a, (![0, 0] : Fin 2 → Nat) a + S32x128.size a ≤ S32x128.size a
  h_S32x128 : 0 < S32x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  slices_S256x128_S128x128_0_0 : S256x128.Slices ![0, 0] S128x128
  slices_S256x128_S128x128_128_0 : S256x128.Slices ![128, 0] S128x128
  shapeCasts_S5000x128_S5000x128 : S5000x128.ShapeCasts S5000x128
  shapeCasts_S128x128_S128x128 : S128x128.ShapeCasts S128x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  reducesTo_S50000_S_d0 : S50000.ReducesTo [0] S_
  h_S_ : 0 < S_.numel
  bcast_S_S1 : S_.BroadcastsInDim S1 (![] : Fin 0 → Fin S1.rank)
  bcast_S1_S50000_0 : S1.BroadcastsInDim S50000 (![0] : Fin 1 → Fin S50000.rank)
  dot_S5000x128_S128x128_S5000x128_1_0_0_1_n_n_wf : DotDims.WF S5000x128 S128x128 S5000x128 [1] [0] [0] [1] [] []
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S50000x128_S128x1_S50000x1_1_0_0_1_n_n_wf : DotDims.WF S50000x128 S128x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .bf16 = 32 ∨ (Rect.block (s := S800000x128) S8000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .bf16 = 32 ∨ (Rect.block (s := S50000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x128 : Shape := ⟨2, ![800000, 128]⟩
abbrev S800000x1 : Shape := ⟨2, ![800000, 1]⟩
abbrev S50000x256 : Shape := ⟨2, ![50000, 256]⟩
abbrev S50000x1 : Shape := ⟨2, ![50000, 1]⟩
abbrev S1x1 : Shape := ⟨2, ![1, 1]⟩
abbrev S50000 : Shape := ⟨1, ![50000]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S128x128, .f32⟩
  | .hbm, ⟨3, _⟩ => ⟨S128, .f32⟩
  | .hbm, ⟨4, _⟩ => ⟨S32x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x256, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S50000, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1, .f32⟩
  | .hbm, ⟨91, _⟩ => ⟨S50000, .f32⟩
  | .hbm, ⟨92, _⟩ => ⟨S50000, .f32⟩
  | .hbm, ⟨93, _⟩ => ⟨S50000, .f32⟩
  | .hbm, ⟨94, _⟩ => ⟨S_, .f32⟩
  | .hbm, ⟨95, _⟩ => ⟨S_, .f32⟩
  | .hbm, ⟨96, _⟩ => ⟨S1, .f32⟩
  | .hbm, ⟨97, _⟩ => ⟨S50000, .f32⟩
  | .hbm, ⟨98, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call2_cst : Ref sig .tc := ⟨.hbm, 53, rfl⟩
abbrev main_call2_v0 : Ref sig .tc := ⟨.hbm, 54, rfl⟩
abbrev main_v32 : Ref sig .tc := ⟨.hbm, 55, rfl⟩
abbrev main_c_2 : Ref sig .tc := ⟨.hbm, 56, rfl⟩
abbrev main_v33 : Ref sig .tc := ⟨.hbm, 57, rfl⟩
abbrev main_v34 : Ref sig .tc := ⟨.hbm, 58, rfl⟩
abbrev main_c_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call3_cst : Ref sig .tc := ⟨.hbm, 78, rfl⟩
abbrev main_call3_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  reducesTo_S50000_S_d0 : S50000.ReducesTo [0] S_
  h_S_ : 0 < S_.numel
  bcast_S_S1 : S_.BroadcastsInDim S1 (![] : Fin 0 → Fin S1.rank)
  bcast_S1_S50000_0 : S1.BroadcastsInDim S50000 (![0] : Fin 1 → Fin S50000.rank)
  dot_S50000x128_S128x128_S50000x128_1_0_0_1_n_n_wf : DotDims.WF S50000x128 S128x128 S50000x128 [1] [0] [0] [1] [] []
  dot_S800000x32_S32x128_S800000x128_1_0_0_1_n_n_wf : DotDims.WF S800000x32 S32x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The two programs as mathematics, over the extended reals.

  A linear layer followed by a rectifier sends a row `r` of `x` to `max (∑ k, x[r,k] · w[k,h] + b[h]) 0` in column
  `h`. A graph-convolution layer does the same to the row `[m_x[r,·], m_e[r,·]]` of two aggregated messages laid side by
  side, against a weight matrix of twice the height. The contraction over the joined row is the contraction over its
  left half (against the top half of the weights) plus the contraction over its right half (against the bottom half):
  a sum over 256 consecutive terms is the sum of the first 128 plus the sum of the last 128, which holds in any
  commutative additive monoid and so on the extended reals, infinities included (no distributivity is used).
-/
import Idealize.ShloMosaic.PureOps.Ideal
import Idealize.ShloMosaic.Lib.ValueIdx
import Mathlib.Algebra.BigOperators.Fin

noncomputable section

open scoped BigOperators

namespace GraphConvSpec

open Idealize.ShloMosaic Idealize.ShloMosaic.ValueIdx

/-- The word of `+0.0` read as an extended real (kept as the word: both programs spell the rectifier's floor so). -/
abbrev zeroWord : EReal := Ideal.ofBits .f32 0x00000000#32

/-- A linear layer then a rectifier: entry `(r, h)` is `max (∑ k, x[r,k] · w[k,h] + b[h]) 0`. -/
def linRelu {R K H : Nat} (x : (⟨2, ![R, K]⟩ : Shape).Idx → EReal) (w : (⟨2, ![K, H]⟩ : Shape).Idx → EReal)
    (b : Fin H → EReal) (r : Fin R) (h : Fin H) : EReal :=
  max ((∑ k : Fin K, x (ix2 r k) * w (ix2 k h)) + b h) zeroWord

/-- A graph-convolution layer then a rectifier, with the weights' two halves given apart: entry `(r, h)` is
    `max ((∑ k, m_x[r,k] · w_top[k,h] + ∑ k, m_e[r,k] · w_bot[k,h]) + b[h]) 0`. -/
def dualRelu {R K H : Nat} (mx me : (⟨2, ![R, K]⟩ : Shape).Idx → EReal) (wt wb : (⟨2, ![K, H]⟩ : Shape).Idx → EReal)
    (b : Fin H → EReal) (r : Fin R) (h : Fin H) : EReal :=
  max (((∑ k : Fin K, mx (ix2 r k) * wt (ix2 k h)) + ∑ k : Fin K, me (ix2 r k) * wb (ix2 k h)) + b h) zeroWord

/-- `linRelu` as one array: the entry at an index is the entry at its two coordinates. -/
def linReluArr {R K H : Nat} (x : (⟨2, ![R, K]⟩ : Shape).Idx → EReal) (w : (⟨2, ![K, H]⟩ : Shape).Idx → EReal)
    (b : Fin H → EReal) : (⟨2, ![R, H]⟩ : Shape).Idx → EReal :=
  fun i => linRelu x w b ⟨(i 0).val, idx2_lt0 i⟩ ⟨(i 1).val, idx2_lt1 i⟩

theorem linReluArr_ix2 {R K H : Nat} (x : (⟨2, ![R, K]⟩ : Shape).Idx → EReal) (w : (⟨2, ![K, H]⟩ : Shape).Idx → EReal)
    (b : Fin H → EReal) (r : Fin R) (h : Fin H) : linReluArr x w b (ix2 r h) = linRelu x w b r h := rfl

/-- `dualRelu` as one array. -/
def dualReluArr {R K H : Nat} (mx me : (⟨2, ![R, K]⟩ : Shape).Idx → EReal) (wt wb : (⟨2, ![K, H]⟩ : Shape).Idx → EReal)
    (b : Fin H → EReal) : (⟨2, ![R, H]⟩ : Shape).Idx → EReal :=
  fun i => dualRelu mx me wt wb b ⟨(i 0).val, idx2_lt0 i⟩ ⟨(i 1).val, idx2_lt1 i⟩

theorem dualReluArr_ix2 {R K H : Nat} (mx me : (⟨2, ![R, K]⟩ : Shape).Idx → EReal) (wt wb : (⟨2, ![K, H]⟩ : Shape).Idx → EReal)
    (b : Fin H → EReal) (r : Fin R) (h : Fin H) : dualReluArr mx me wt wb b (ix2 r h) = dualRelu mx me wt wb b r h := rfl

/-- The top 128 rows of a weight matrix of 256 rows. -/
def topHalf (w : (⟨2, ![256, 128]⟩ : Shape).Idx → EReal) : (⟨2, ![128, 128]⟩ : Shape).Idx → EReal :=
  fun i => w (ix2 (⟨(i 0).val, Nat.lt_of_lt_of_le (idx2_lt0 i) (by decide)⟩ : Fin 256) (⟨(i 1).val, idx2_lt1 i⟩ : Fin 128))

/-- The bottom 128 rows of a weight matrix of 256 rows. -/
def botHalf (w : (⟨2, ![256, 128]⟩ : Shape).Idx → EReal) : (⟨2, ![128, 128]⟩ : Shape).Idx → EReal :=
  fun i => w (ix2 (⟨128 + (i 0).val, Nat.add_lt_add_left (idx2_lt0 i) 128⟩ : Fin 256) (⟨(i 1).val, idx2_lt1 i⟩ : Fin 128))

/-- A sum over 256 consecutive terms is the sum of its first 128 terms plus the sum of its last 128. -/
theorem sum_split_256 {M : Type} [AddCommMonoid M] (f : Fin 256 → M) :
    ∑ k : Fin 256, f k
      = (∑ k : Fin 128, f ⟨k.val, Nat.lt_of_lt_of_le k.isLt (by decide)⟩)
        + ∑ k : Fin 128, f ⟨128 + k.val, Nat.add_lt_add_left k.isLt 128⟩ := by
  have h := Fin.sum_univ_add (a := 128) (b := 128) (fun k : Fin (128 + 128) => f k)
  exact h

end GraphConvSpec

end
-- ==== Proof.Region0.lean ====
/-
  The first region: the node transform. Each of its ten grid points takes 5000 consecutive rows of the node
  features, multiplies them by the whole 128 × 128 weight matrix, adds the bias row and rectifies; the output
  window writes those 5000 rows back at the same row offset. So after the region the output array is, entry by
  entry, `max (∑ k, x[r,k] · w[k,h] + b[0,h]) 0` of the region's three entry arrays, whatever those are.
-/
import proofs.«167609_j73443940762207_1_alg».proof.Proof.KernelIdealFrame
import proofs.«167609_j73443940762207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open GraphConvSpec

/-! ## The body's arithmetic at one entry of a block -/

/-- The product's left operand index at output entry `i` and contraction position `q`: row of `i`, column `q`. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index: row `q`, column of `i`. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at entry `(p, q)`: the sum over the 128 contraction positions of
    the left operand's row `p` against the right operand's column `q`. -/
theorem matmul_block_apply (l : FVec Ideal S5000x128 .bf16) (r : FVec Ideal S128x128 .bf16) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row laid under every row of the block: entry `(p, q)` reads the row's entry `q`. -/
theorem bias_block_apply (x2 : Vec Ideal S1x128 .f32) (p : Fin 5000) (q : Fin 128) :
    broadcastTo S5000x128 (shapeCast S1x128 x2 shapeCasts_S1x128_S1x128) broadcasts_S1x128_S5000x128 (ix2 p q) = x2 (ix2 0 q) := by
  rw [shapeCast_self]
  refine broadcastTo_apply x2 broadcasts_S1x128_S5000x128 (ix2 p q) (ix2 0 q) fun a => ?_
  match a with
  | ⟨0, _⟩ => rfl
  | ⟨1, _⟩ => rfl

/-- THE BODY'S ARITHMETIC AT ENTRY `(p, q)` OF A BLOCK: the rectified linear layer of the block's row `p`. -/
theorem pay_apply (x0 : Vec Ideal S5000x128 .f32) (x1 : Vec Ideal S128x128 .f32) (x2 : Vec Ideal S1x128 .f32) (p : Fin 5000) (q : Fin 128) :
    k0_pay1 (F := Ideal) x0 x1 x2 (ix2 p q) = max ((∑ k : Fin 128, x0 (ix2 p k) * x1 (ix2 k q)) + x2 (ix2 0 q)) zeroWord := by
  unfold k0_pay1
  show max (FloatOps.matmul dot_S5000x128_S128x128_S5000x128_1_0_0_1_n_n none (truncf .bf16 x0 bitsLt_bf16_f32) (truncf .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q)) zeroWord = _
  rw [matmul_block_apply, bias_block_apply]
  rfl

variable (V : (c : Dev nD) → (b : Ref sig .tc) → Buf (Elt Ideal) ((c : Thread nD τ).loc b))

/-- The region's three entry arrays, by their literal types: the node features, the weights, the bias row. -/
abbrev xarr (c : Dev nD) : Vec Ideal S50000x128 .f32 := V c (Pipeline.arrRef spec0 0)
abbrev warr (c : Dev nD) : Vec Ideal S128x128 .f32 := V c (Pipeline.arrRef spec0 1)
abbrev barr (c : Dev nD) : Vec Ideal S1x128 .f32 := V c (Pipeline.arrRef spec0 2)

/-! ## From blocks to the array -/

theorem hz : (![0, 0] : Fin 2 → Nat) = fun _ => 0 := funext fun a => by fin_cases a <;> rfl

/-- The block indices over the grid: the feature window and the output window sit at row block `t`, column block 0;
    the weight and bias windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- The feature block at point `t` is rows `5000 t … 5000 t + 4999` of the feature array. -/
theorem xblk_apply (c : Dev nD) (t : Fin cfg0.N) (y : S5000x128.Idx) (k : S50000x128.Idx)
    (hk0 : (k 0).val = t.val * 5000 + (y 0).val) (hk1 : (k 1).val = (y 1).val) :
    (iblk0 V c 0 t : Vec Ideal S5000x128 .f32) y = xarr V c k := by
  obtain ⟨e0, e1, -⟩ := idx_facts t
  show xarr V c (((cfg0.win 0).blk t).view.emb y) = xarr V c k
  refine congrArg (xarr V c) (funext fun a => Fin.ext ?_)
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- The weight block at every point is the whole weight matrix. -/
theorem wblk_apply (c : Dev nD) (t : Fin cfg0.N) (y : S128x128.Idx) :
    (iblk0 V c 1 t : Vec Ideal S128x128 .f32) y = warr V c y := by
  obtain ⟨-, -, e0, e1, -⟩ := idx_facts t
  show warr V c (((cfg0.win 1).blk t).view.emb y) = warr V c y
  refine congrArg (warr V c) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block at every point is the whole bias row. -/
theorem bblk_apply (c : Dev nD) (t : Fin cfg0.N) (y : S1x128.Idx) :
    (iblk0 V c 2 t : Vec Ideal S1x128 .f32) y = barr V c y := by
  obtain ⟨-, -, -, -, e0, e1, -⟩ := idx_facts t
  show barr V c (((cfg0.win 2).blk t).view.emb y) = barr V c y
  refine congrArg (barr V c) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The layer's array at an index whose coordinates are known. -/
theorem linReluArr_at (x : Vec Ideal S50000x128 .f32) (w : Vec Ideal S128x128 .f32) (b : Fin 128 → EReal)
    (i : S50000x128.Idx) (r : Fin 50000) (h : Fin 128) (h0 : (i 0).val = r.val) (h1 : (i 1).val = h.val) :
    linReluArr x w b i = linRelu x w b r h := by
  obtain rfl : i = ix2 r h := funext fun a => by
    match a with
    | ⟨0, _⟩ => exact Fin.ext h0
    | ⟨1, _⟩ => exact Fin.ext h1
  rfl

/-- WHAT POINT `t` WRITES BACK is block `t` of the layer's array: entry `(p, q)` of the block is the rectified
    linear layer of row `5000 t + p` of the features. -/
theorem flushed_eq (c : Dev nD) (t : Fin cfg0.N) :
    (dat0 V c).flushed 3 t
      = ((cfg0.win 3).blk t).view.read (Elt Ideal) (linReluArr (xarr V c) (warr V c) (fun h => barr V c (ix2 0 h))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  have ht := point_lt t
  obtain ⟨-, -, -, -, -, -, e0, e1⟩ := idx_facts t
  funext j
  obtain ⟨p, q, rfl⟩ : ∃ (p : Fin 5000) (q : Fin 128), j = ix2 p q := ⟨j 0, j 1, eq_ix2 (n0 := 5000) (n1 := 128) j⟩
  refine (pay_apply (iblk0 V c 0 t) (iblk0 V c 1 t) (iblk0 V c 2 t) p q).trans ?_
  show _ = linReluArr (xarr V c) (warr V c) (fun h => barr V c (ix2 0 h)) (((cfg0.win 3).blk t).view.emb (ix2 p q))
  refine Eq.trans ?_ (linReluArr_at (xarr V c) (warr V c) (fun h => barr V c (ix2 0 h)) _
    ⟨t.val * 5000 + p.val, by have := p.isLt; omega⟩ q
    (show win0_3.index t (0 : Fin 2) * 5000 + 1 * p.val = t.val * 5000 + p.val by omega)
    (show win0_3.index t (1 : Fin 2) * 128 + 1 * q.val = q.val by omega)).symm
  unfold linRelu
  refine congrArg (fun z => max z zeroWord) (congrArg₂ (· + ·) (Finset.sum_congr rfl fun k _ => congrArg₂ (· * ·) ?_ ?_) ?_)
  · exact xblk_apply V c t (ix2 p k) (ix2 ⟨t.val * 5000 + p.val, by have := p.isLt; omega⟩ k) rfl rfl
  · exact wblk_apply V c t (ix2 k q)
  · exact bblk_apply V c t (ix2 0 q)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Row `r` of the array lies in the block of point `r / 5000`, which is written back. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region, the output array is the linear layer then the rectifier of the entry arrays. -/
theorem final0 (c : Dev nD) :
    (dat0 V c).arrAt 3 cfg0.N = linReluArr (xarr V c) (warr V c) (fun h => barr V c (ix2 0 h)) :=
  (dat0 V c).arrAt_eq_of_cover 3 (linReluArr (xarr V c) (warr V c) (fun h => barr V c (ix2 0 h)))
    (fun t _ => flushed_eq V c t) covered

end Cert.KernelIdeal.Region0

end
-- ==== Proof.Region1.lean ====
/-
  The second region: the edge transform. Each of its hundred grid points takes 8000 consecutive rows of the edge
  features, multiplies them by the whole 32 × 128 weight matrix, adds the bias row and rectifies; the output window
  writes those 8000 rows back at the same row offset. So after the region the output array is, entry by entry,
  `max (∑ k, x[r,k] · w[k,h] + b[0,h]) 0` of the region's three entry arrays, whatever those are.
-/
import proofs.«167609_j73443940762207_1_alg».proof.Proof.KernelIdealFrame
import proofs.«167609_j73443940762207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open GraphConvSpec

/-! ## The body's arithmetic at one entry of a block -/

/-- The product's left operand index at output entry `i` and contraction position `q`: row of `i`, column `q`. -/
theorem lhs_dot_0 (i : S8000x128.Idx) (q : dot_S8000x32_S32x128_S8000x128_1_0_0_1_n_n.contr.Idx) :
    (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem lhs_dot_1 (i : S8000x128.Idx) (q : dot_S8000x32_S32x128_S8000x128_1_0_0_1_n_n.contr.Idx) :
    (dot_S8000x32_S32x128_S8000x128_1_0_0_1_n_n.lhsIdx i q 1).val = (q ⟨0, by decide⟩).val :=
  dot_S8000x32_S32x128_S8000x128_1_0_0_1_n_n.lhsIdx_val_of_single rfl i q
/-- The right operand index: row `q`, column of `i`. -/
theorem rhs_dot_0 (i : S8000x128.Idx) (q : dot_S8000x32_S32x128_S8000x128_1_0_0_1_n_n.contr.Idx) :
    (dot_S8000x32_S32x128_S8000x128_1_0_0_1_n_n.rhsIdx i q 0).val = (q ⟨0, by decide⟩).val :=
  dot_S8000x32_S32x128_S8000x128_1_0_0_1_n_n.rhsIdx_val_of_single rfl i q
theorem rhs_dot_1 (i : S8000x128.Idx) (q : dot_S8000x32_S32x128_S8000x128_1_0_0_1_n_n.contr.Idx) :
    (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

/-- The matrix product into a zero accumulator, at entry `(p, q)`: the sum over the 32 contraction positions of
    the left operand's row `p` against the right operand's column `q`. -/
theorem matmul_block_apply (l : FVec Ideal S8000x32 .bf16) (r : FVec Ideal S32x128 .bf16) (p : Fin 8000) (q : Fin 128) :
    FloatOps.matmul dot_S8000x32_S32x128_S8000x128_1_0_0_1_n_n none l r (constant (F := Ideal) S8000x128 .f32 0x00000000#32) (ix2 p q)
      = ∑ k : Fin 32, l (ix2 p k) * r (ix2 k q) := by
  refine (Ideal.matmul_constant_zero_apply dot_S8000x32_S32x128_S8000x128_1_0_0_1_n_n none l r (ix2 p q)).trans ?_
  rw [← Equiv.sum_comp (ValueIdx.contrEquiv1 dot_S8000x32_S32x128_S8000x128_1_0_0_1_n_n 32 rfl rfl).symm]
  refine Finset.sum_congr rfl fun k _ => ?_
  have hk := ValueIdx.contrEquiv1_symm_val dot_S8000x32_S32x128_S8000x128_1_0_0_1_n_n 32 rfl rfl k
  have el : dot_S8000x32_S32x128_S8000x128_1_0_0_1_n_n.lhsIdx (ix2 p q) ((ValueIdx.contrEquiv1 dot_S8000x32_S32x128_S8000x128_1_0_0_1_n_n 32 rfl rfl).symm k) = ix2 p k := funext fun a => Fin.ext (by
    match a with
    | ⟨0, _⟩ => exact lhs_dot_0 _ _
    | ⟨1, _⟩ => exact (lhs_dot_1 _ _).trans hk)
  have er : dot_S8000x32_S32x128_S8000x128_1_0_0_1_n_n.rhsIdx (ix2 p q) ((ValueIdx.contrEquiv1 dot_S8000x32_S32x128_S8000x128_1_0_0_1_n_n 32 rfl rfl).symm k) = ix2 k q := funext fun a => Fin.ext (by
    match a with
    | ⟨0, _⟩ => exact (rhs_dot_0 _ _).trans hk
    | ⟨1, _⟩ => exact rhs_dot_1 _ _)
  rw [el, er]

/-- The bias row laid under every row of the block: entry `(p, q)` reads the row's entry `q`. -/
theorem bias_block_apply (x2 : Vec Ideal S1x128 .f32) (p : Fin 8000) (q : Fin 128) :
    broadcastTo S8000x128 (shapeCast S1x128 x2 shapeCasts_S1x128_S1x128) broadcasts_S1x128_S8000x128 (ix2 p q) = x2 (ix2 0 q) := by
  rw [shapeCast_self]
  refine broadcastTo_apply x2 broadcasts_S1x128_S8000x128 (ix2 p q) (ix2 0 q) fun a => ?_
  match a with
  | ⟨0, _⟩ => rfl
  | ⟨1, _⟩ => rfl

/-- THE BODY'S ARITHMETIC AT ENTRY `(p, q)` OF A BLOCK: the rectified linear layer of the block's row `p`. -/
theorem pay_apply (x0 : Vec Ideal S8000x32 .f32) (x1 : Vec Ideal S32x128 .f32) (x2 : Vec Ideal S1x128 .f32) (p : Fin 8000) (q : Fin 128) :
    k1_pay1 (F := Ideal) x0 x1 x2 (ix2 p q) = max ((∑ k : Fin 32, x0 (ix2 p k) * x1 (ix2 k q)) + x2 (ix2 0 q)) zeroWord := by
  unfold k1_pay1
  show max (FloatOps.matmul dot_S8000x32_S32x128_S8000x128_1_0_0_1_n_n none (truncf .bf16 x0 bitsLt_bf16_f32) (truncf .bf16 x1 bitsLt_bf16_f32) (constant (F := Ideal) S8000x128 .f32 0x00000000#32) (ix2 p q)
      + broadcastTo S8000x128 (shapeCast S1x128 x2 shapeCasts_S1x128_S1x128) broadcasts_S1x128_S8000x128 (ix2 p q)) zeroWord = _
  rw [matmul_block_apply, bias_block_apply]
  rfl

variable (V : (c : Dev nD) → (b : Ref sig .tc) → Buf (Elt Ideal) ((c : Thread nD τ).loc b))

/-- The region's three entry arrays, by their literal types: the edge features, the weights, the bias row. -/
abbrev xarr (c : Dev nD) : Vec Ideal S800000x32 .f32 := V c (Pipeline.arrRef spec1 0)
abbrev warr (c : Dev nD) : Vec Ideal S32x128 .f32 := V c (Pipeline.arrRef spec1 1)
abbrev barr (c : Dev nD) : Vec Ideal S1x128 .f32 := V c (Pipeline.arrRef spec1 2)

/-! ## From blocks to the array -/

theorem hz : (![0, 0] : Fin 2 → Nat) = fun _ => 0 := funext fun a => by fin_cases a <;> rfl

/-- The block indices over the grid: the feature window and the output window sit at row block `t`, column block 0;
    the weight and bias windows stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 100 := lt_of_lt_of_eq t.isLt N_1

/-- The feature block at point `t` is rows `8000 t … 8000 t + 7999` of the feature array. -/
theorem xblk_apply (c : Dev nD) (t : Fin cfg1.N) (y : S8000x32.Idx) (k : S800000x32.Idx)
    (hk0 : (k 0).val = t.val * 8000 + (y 0).val) (hk1 : (k 1).val = (y 1).val) :
    (iblk1 V c 0 t : Vec Ideal S8000x32 .f32) y = xarr V c k := by
  obtain ⟨e0, e1, -⟩ := idx_facts t
  show xarr V c (((cfg1.win 0).blk t).view.emb y) = xarr V c k
  refine congrArg (xarr V c) (funext fun a => Fin.ext ?_)
  match a with
  | ⟨0, _⟩ => show win1_0.index t (0 : Fin 2) * 8000 + 1 * (y 0).val = (k 0).val; omega
  | ⟨1, _⟩ => show win1_0.index t (1 : Fin 2) * 32 + 1 * (y 1).val = (k 1).val; omega

/-- The weight block at every point is the whole weight matrix. -/
theorem wblk_apply (c : Dev nD) (t : Fin cfg1.N) (y : S32x128.Idx) :
    (iblk1 V c 1 t : Vec Ideal S32x128 .f32) y = warr V c y := by
  obtain ⟨-, -, e0, e1, -⟩ := idx_facts t
  show warr V c (((cfg1.win 1).blk t).view.emb y) = warr V c y
  refine congrArg (warr V c) (funext fun a => Fin.ext ?_)
  match a with
  | ⟨0, _⟩ => show win1_1.index t (0 : Fin 2) * 32 + 1 * (y 0).val = (y 0).val; omega
  | ⟨1, _⟩ => show win1_1.index t (1 : Fin 2) * 128 + 1 * (y 1).val = (y 1).val; omega

/-- The bias block at every point is the whole bias row. -/
theorem bblk_apply (c : Dev nD) (t : Fin cfg1.N) (y : S1x128.Idx) :
    (iblk1 V c 2 t : Vec Ideal S1x128 .f32) y = barr V c y := by
  obtain ⟨-, -, -, -, e0, e1, -⟩ := idx_facts t
  show barr V c (((cfg1.win 2).blk t).view.emb y) = barr V c y
  refine congrArg (barr V c) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The layer's array at an index whose coordinates are known. -/
theorem linReluArr_at (x : Vec Ideal S800000x32 .f32) (w : Vec Ideal S32x128 .f32) (b : Fin 128 → EReal)
    (i : S800000x128.Idx) (r : Fin 800000) (h : Fin 128) (h0 : (i 0).val = r.val) (h1 : (i 1).val = h.val) :
    linReluArr x w b i = linRelu x w b r h := by
  obtain rfl : i = ix2 r h := funext fun a => by
    match a with
    | ⟨0, _⟩ => exact Fin.ext h0
    | ⟨1, _⟩ => exact Fin.ext h1
  rfl

/-- WHAT POINT `t` WRITES BACK is block `t` of the layer's array: entry `(p, q)` of the block is the rectified
    linear layer of row `8000 t + p` of the features. -/
theorem flushed_eq (c : Dev nD) (t : Fin cfg1.N) :
    (dat1 V c).flushed 3 t
      = ((cfg1.win 3).blk t).view.read (Elt Ideal) (linReluArr (xarr V c) (warr V c) (fun h => barr V c (ix2 0 h))) := by
  show (cfg1.win 3).cut (grid1.coords t) ((dat1 V c).after 3 t) = _
  rw [after1_3]
  unfold out1_3
  rw [View.canon_unit_zero hz]
  simp only [View.ld_unit_zero (S := S8000x32) hz, View.ld_unit_zero (S := S32x128) hz, View.ld_unit_zero (S := S1x128) hz]
  have ht := point_lt t
  obtain ⟨-, -, -, -, -, -, e0, e1⟩ := idx_facts t
  funext j
  obtain ⟨p, q, rfl⟩ : ∃ (p : Fin 8000) (q : Fin 128), j = ix2 p q := ⟨j 0, j 1, eq_ix2 (n0 := 8000) (n1 := 128) j⟩
  refine (pay_apply (iblk1 V c 0 t) (iblk1 V c 1 t) (iblk1 V c 2 t) p q).trans ?_
  show _ = linReluArr (xarr V c) (warr V c) (fun h => barr V c (ix2 0 h)) (((cfg1.win 3).blk t).view.emb (ix2 p q))
  refine Eq.trans ?_ (linReluArr_at (xarr V c) (warr V c) (fun h => barr V c (ix2 0 h)) _
    ⟨t.val * 8000 + p.val, by have := p.isLt; omega⟩ q
    (show win1_3.index t (0 : Fin 2) * 8000 + 1 * p.val = t.val * 8000 + p.val by omega)
    (show win1_3.index t (1 : Fin 2) * 128 + 1 * q.val = q.val by omega)).symm
  unfold linRelu
  refine congrArg (fun z => max z zeroWord) (congrArg₂ (· + ·) (Finset.sum_congr rfl fun k _ => congrArg₂ (· * ·) ?_ ?_) ?_)
  · exact xblk_apply V c t (ix2 p k) (ix2 ⟨t.val * 8000 + p.val, by have := p.isLt; omega⟩ k) rfl rfl
  · exact wblk_apply V c t (ix2 k q)
  · exact bblk_apply V c t (ix2 0 q)

/-- An index of the array is in point `t`'s block iff each coordinate is in the block's range on its axis. -/
theorem mem_blk (t : Fin cfg1.N) (i : S800000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v7).slice (win1_3.rect t)).set ↔ _
  rw [View.set_slice_whole, Rect.mem_set_unit]
  exact Iff.rfl

/-- Row `r` of the array lies in the block of point `r / 8000`, which is written back. -/
theorem covered (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : grid1.N = 100 := N_1
  let t : Fin cfg1.N := ⟨(i 0).val / 8000, by show (i 0).val / 8000 < grid1.N; omega⟩
  obtain ⟨-, -, -, -, -, -, e0, e1⟩ := idx_facts t
  have ht : t.val = (i 0).val / 8000 := rfl
  refine ⟨t, flush1_3 t, ?_⟩
  rw [mem_blk]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- After the region, the output array is the linear layer then the rectifier of the entry arrays. -/
theorem final1 (c : Dev nD) :
    (dat1 V c).arrAt 3 cfg1.N = linReluArr (xarr V c) (warr V c) (fun h => barr V c (ix2 0 h)) :=
  (dat1 V c).arrAt_eq_of_cover 3 (linReluArr (xarr V c) (warr V c) (fun h => barr V c (ix2 0 h)))
    (fun t _ => flushed_eq V c t) covered

end Cert.KernelIdeal.Region1

end
-- ==== Proof.Region2.lean ====
/-
  The third region: a graph-convolution combine. Each of its ten grid points takes 5000 consecutive rows of the two
  aggregated message arrays, multiplies the first by the top half of the layer's weights and the second by the
  bottom half, adds the two products and the bias row, and rectifies; the output window writes those 5000 rows back
  at the same row offset. So after the region the output array is, entry by entry,
  `max ((∑ k, m_x[r,k] · w_top[k,h] + ∑ k, m_e[r,k] · w_bot[k,h]) + b[0,h]) 0` of the region's five entry arrays.
-/
import proofs.«167609_j73443940762207_1_alg».proof.Proof.KernelIdealFrame
import proofs.«167609_j73443940762207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open GraphConvSpec

/-! ## The block product at an entry -/

/-- On the left operand of the block product, the row axis is the output's row. -/
theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the left operand, the column axis is the contracted index. -/
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand, the row axis is the contracted index. -/
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand, the column axis is the output's column. -/
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 by 128 matrix, started from zero: entry `(p, q)` is `∑ k, l[p,k] · r[k,q]`. -/
theorem blkmul_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The body's result at an entry -/

/-- What the body stores, entry `(p, q)` of its block: the two block products added, plus the bias row's entry `q`,
    rectified (the narrowings and same-shape casts are the identity on the extended reals). -/
theorem pay_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = max (((∑ k : Fin 128, x0 (ix2 p k) * x2 (ix2 k q)) + ∑ k : Fin 128, x1 (ix2 p k) * x3 (ix2 k q))
          + x4 (ix2 0 q)) zeroWord := by
  unfold k2_pay1
  simp only [shapeCast_self]
  have hm1 := blkmul_apply (truncf .bf16 x0 bitsLt_bf16_f32) (truncf .bf16 x2 bitsLt_bf16_f32) p q
  have hm2 := blkmul_apply (truncf .bf16 x1 bitsLt_bf16_f32) (truncf .bf16 x3 bitsLt_bf16_f32) p q
  have hb : broadcastTo S5000x128 x4 broadcasts_S1x128_S5000x128 (ix2 p q) = x4 (ix2 0 q) :=
    broadcastTo_apply x4 broadcasts_S1x128_S5000x128 (ix2 p q) (ix2 0 q) (fun a => by
      match a with
      | ⟨0, _⟩ => rfl
      | ⟨1, _⟩ => rfl)
  rw [truncf_apply, maximumf_apply, addf_apply, addf_apply, broadcast_apply, hm1, hm2, hb]
  simp only [truncf_apply]
  rfl

/-! ## From blocks to the array -/

variable (V : (c : Dev nD) → (b : Ref sig .tc) → Buf (Elt Ideal) ((c : Thread nD τ).loc b))

/-- The region's five entry arrays, by their literal types: the two message arrays, the weights' halves, the bias row. -/
abbrev mxarr (c : Dev nD) : Vec Ideal S50000x128 .f32 := V c (Pipeline.arrRef spec2 0)
abbrev mearr (c : Dev nD) : Vec Ideal S50000x128 .f32 := V c (Pipeline.arrRef spec2 1)
abbrev wtarr (c : Dev nD) : Vec Ideal S128x128 .f32 := V c (Pipeline.arrRef spec2 2)
abbrev wbarr (c : Dev nD) : Vec Ideal S128x128 .f32 := V c (Pipeline.arrRef spec2 3)
abbrev barr (c : Dev nD) : Vec Ideal S1x128 .f32 := V c (Pipeline.arrRef spec2 4)

/-- The five input blocks at a grid point, by their literal types. -/
abbrev mxblk (c : Dev nD) (t : Fin cfg2.N) : Vec Ideal S5000x128 .f32 := iblk2 V c 0 t
abbrev meblk (c : Dev nD) (t : Fin cfg2.N) : Vec Ideal S5000x128 .f32 := iblk2 V c 1 t
abbrev wtblk (c : Dev nD) (t : Fin cfg2.N) : Vec Ideal S128x128 .f32 := iblk2 V c 2 t
abbrev wbblk (c : Dev nD) (t : Fin cfg2.N) : Vec Ideal S128x128 .f32 := iblk2 V c 3 t
abbrev bblk (c : Dev nD) (t : Fin cfg2.N) : Vec Ideal S1x128 .f32 := iblk2 V c 4 t

theorem hz : (![0, 0] : Fin 2 → Nat) = fun _ => 0 := funext fun a => by fin_cases a <;> rfl

/-- The block index maps over the grid: the two message windows move down the rows with the output window, one block
    of 5000 rows per point; the weight halves and the bias row stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 10 := lt_of_lt_of_eq t.isLt N_2

/-- Row `p` of the block at point `t` is row `5000 t + p` of the array. -/
def rowAt (t : Fin cfg2.N) (p : Fin 5000) : Fin 50000 :=
  ⟨t.val * 5000 + p.val, by have := point_lt t; have := p.isLt; omega⟩

/-- The first message block at point `t` is rows `5000 t … 5000 t + 4999` of the first message array. -/
theorem mxblk_apply (c : Dev nD) (t : Fin cfg2.N) (p : Fin 5000) (k : Fin 128) :
    mxblk V c t (ix2 p k) = mxarr V c (ix2 (rowAt t p) k) := by
  obtain ⟨e00, e01, -⟩ := idx_facts t
  unfold mxblk mxarr iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The second message block at point `t` is the same rows of the second message array. -/
theorem meblk_apply (c : Dev nD) (t : Fin cfg2.N) (p : Fin 5000) (k : Fin 128) :
    meblk V c t (ix2 p k) = mearr V c (ix2 (rowAt t p) k) := by
  obtain ⟨-, -, e10, e11, -⟩ := idx_facts t
  unfold meblk mearr iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- The top weight block at every point is the whole top half of the weights. -/
theorem wtblk_apply (c : Dev nD) (t : Fin cfg2.N) (k : Fin 128) (q : Fin 128) :
    wtblk V c t (ix2 k q) = wtarr V c (ix2 k q) := by
  obtain ⟨-, -, -, -, e20, e21, -⟩ := idx_facts t
  unfold wtblk wtarr iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bottom weight block at every point is the whole bottom half of the weights. -/
theorem wbblk_apply (c : Dev nD) (t : Fin cfg2.N) (k : Fin 128) (q : Fin 128) :
    wbblk V c t (ix2 k q) = wbarr V c (ix2 k q) := by
  obtain ⟨-, -, -, -, -, -, e30, e31, -⟩ := idx_facts t
  unfold wbblk wbarr iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The bias block at every point is the whole bias row. -/
theorem bblk_apply (c : Dev nD) (t : Fin cfg2.N) (z : Fin 1) (q : Fin 128) :
    bblk V c t (ix2 z q) = barr V c (ix2 z q) := by
  obtain ⟨-, -, -, -, -, -, -, -, e40, e41, -⟩ := idx_facts t
  unfold bblk barr iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 1 + 1 * z.val = z.val; omega
  | ⟨1, _⟩ => show win2_4.index t (1 : Fin 2) * 128 + 1 * q.val = q.val; omega

/-- Entry `(p, q)` of the output block at point `t` sits at row `5000 t + p`, column `q` of the output array. -/
theorem out_emb (t : Fin cfg2.N) (p : Fin 5000) (q : Fin 128) :
    (((cfg2.win 5).blk t).view.emb (ix2 p q) : S50000x128.Idx) = ix2 (rowAt t p) q := by
  obtain ⟨-, -, -, -, -, -, -, -, -, -, e50, e51⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 128 + 1 * q.val = q.val; omega

/-- The graph-convolution layer then the rectifier of the region's entry arrays, as one array. -/
abbrev layerArr (c : Dev nD) : S50000x128.Idx → EReal :=
  dualReluArr (mxarr V c) (mearr V c) (wtarr V c) (wbarr V c) (fun h => barr V c (ix2 0 h))

/-- What point `t` writes back is block `t` of the layer's array: rows `5000 t … 5000 t + 4999`. -/
theorem flushed_eq (c : Dev nD) (t : Fin cfg2.N) :
    (dat2 V c).flushed 5 t = ((cfg2.win 5).blk t).view.read (Elt Ideal) (layerArr V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_apply (mxblk V c t) (meblk V c t) (wtblk V c t) (wbblk V c t) (bblk V c t) p q).trans ?_
  rw [View.read_apply]
  refine Eq.trans ?_ (congrArg (layerArr V c) (out_emb t p q)).symm
  refine Eq.trans ?_ (dualReluArr_ix2 (mxarr V c) (mearr V c) (wtarr V c) (wbarr V c) (fun h => barr V c (ix2 0 h)) (rowAt t p) q).symm
  unfold dualRelu
  simp only [mxblk_apply, meblk_apply, wtblk_apply, wbblk_apply, bblk_apply]

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v26).slice (win2_5.rect t)).set ↔ _
  rw [View.set_slice_whole, Rect.mem_set_unit]
  exact Iff.rfl

/-- The ten blocks of 5000 rows fill the 50000 rows: row `r` lies in the block of point `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (show (i 0).val / 5000 < 10 by omega) N_2.symm⟩, rfl⟩
  obtain ⟨-, -, -, -, -, -, -, -, -, -, e50, e51⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the region, the output array is the graph-convolution layer then the rectifier of the entry arrays. -/
theorem final2 (c : Dev nD) :
    (dat2 V c).arrAt 5 cfg2.N
      = dualReluArr (mxarr V c) (mearr V c) (wtarr V c) (wbarr V c) (fun h => barr V c (ix2 0 h)) :=
  (dat2 V c).arrAt_eq_of_cover 5 (layerArr V c) (fun t _ => flushed_eq V c t) cover

end Cert.KernelIdeal.Region2

end
-- ==== Proof.Region3.lean ====
/-
  The fourth region: a graph-convolution combine. Each of its ten grid points takes 5000 consecutive rows of the two
  aggregated message arrays, multiplies the first by the top half of the layer's weights and the second by the
  bottom half, adds the two products and the bias row, and rectifies; the output window writes those 5000 rows back
  at the same row offset. So after the region the output array is, entry by entry,
  `max ((∑ k, m_x[r,k] · w_top[k,h] + ∑ k, m_e[r,k] · w_bot[k,h]) + b[0,h]) 0` of the region's five entry arrays.
-/
import proofs.«167609_j73443940762207_1_alg».proof.Proof.KernelIdealFrame
import proofs.«167609_j73443940762207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open GraphConvSpec

/-! ## The block product at an entry -/

/-- On the left operand of the block product, the row axis is the output's row. -/
theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the left operand, the column axis is the contracted index. -/
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand, the row axis is the contracted index. -/
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand, the column axis is the output's column. -/
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 by 128 matrix, started from zero: entry `(p, q)` is `∑ k, l[p,k] · r[k,q]`. -/
theorem blkmul_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The body's result at an entry -/

/-- What the body stores, entry `(p, q)` of its block: the two block products added, plus the bias row's entry `q`,
    rectified (the narrowings and same-shape casts are the identity on the extended reals). -/
theorem pay_apply (x0 x1 : Vec Ideal S5000x128 .f32) (x2 x3 : Vec Ideal S128x128 .f32) (x4 : Vec Ideal S1x128 .f32)
    (p : Fin 5000) (q : Fin 128) :
    k3_pay1 (F := Ideal) x0 x1 x2 x3 x4 (ix2 p q)
      = max (((∑ k : Fin 128, x0 (ix2 p k) * x2 (ix2 k q)) + ∑ k : Fin 128, x1 (ix2 p k) * x3 (ix2 k q))
          + x4 (ix2 0 q)) zeroWord := by
  unfold k3_pay1
  simp only [shapeCast_self]
  have hm1 := blkmul_apply (truncf .bf16 x0 bitsLt_bf16_f32) (truncf .bf16 x2 bitsLt_bf16_f32) p q
  have hm2 := blkmul_apply (truncf .bf16 x1 bitsLt_bf16_f32) (truncf .bf16 x3 bitsLt_bf16_f32) p q
  have hb : broadcastTo S5000x128 x4 broadcasts_S1x128_S5000x128 (ix2 p q) = x4 (ix2 0 q) :=
    broadcastTo_apply x4 broadcasts_S1x128_S5000x128 (ix2 p q) (ix2 0 q) (fun a => by
      match a with
      | ⟨0, _⟩ => rfl
      | ⟨1, _⟩ => rfl)
  rw [maximumf_apply, addf_apply, addf_apply, broadcast_apply, hm1, hm2, hb]
  simp only [truncf_apply]
  rfl

/-! ## From blocks to the array -/

variable (V : (c : Dev nD) → (b : Ref sig .tc) → Buf (Elt Ideal) ((c : Thread nD τ).loc b))

/-- The region's five entry arrays, by their literal types: the two message arrays, the weights' halves, the bias row. -/
abbrev mxarr (c : Dev nD) : Vec Ideal S50000x128 .f32 := V c (Pipeline.arrRef spec3 0)
abbrev mearr (c : Dev nD) : Vec Ideal S50000x128 .f32 := V c (Pipeline.arrRef spec3 1)
abbrev wtarr (c : Dev nD) : Vec Ideal S128x128 .f32 := V c (Pipeline.arrRef spec3 2)
abbrev wbarr (c : Dev nD) : Vec Ideal S128x128 .f32 := V c (Pipeline.arrRef spec3 3)
abbrev barr (c : Dev nD) : Vec Ideal S1x128 .f32 := V c (Pipeline.arrRef spec3 4)

/-- The five input blocks at a grid point, by their literal types. -/
abbrev mxblk (c : Dev nD) (t : Fin cfg3.N) : Vec Ideal S5000x128 .f32 := iblk3 V c 0 t
abbrev meblk (c : Dev nD) (t : Fin cfg3.N) : Vec Ideal S5000x128 .f32 := iblk3 V c 1 t
abbrev wtblk (c : Dev nD) (t : Fin cfg3.N) : Vec Ideal S128x128 .f32 := iblk3 V c 2 t
abbrev wbblk (c : Dev nD) (t : Fin cfg3.N) : Vec Ideal S128x128 .f32 := iblk3 V c 3 t
abbrev bblk (c : Dev nD) (t : Fin cfg3.N) : Vec Ideal S1x128 .f32 := iblk3 V c 4 t

theorem hz : (![0, 0] : Fin 2 → Nat) = fun _ => 0 := funext fun a => by fin_cases a <;> rfl

/-- The block index maps over the grid: the two message windows move down the rows with the output window, one block
    of 5000 rows per point; the weight halves and the bias row stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem point_lt (t : Fin cfg3.N) : t.val < 10 := lt_of_lt_of_eq t.isLt N_3

/-- Row `p` of the block at point `t` is row `5000 t + p` of the array. -/
def rowAt (t : Fin cfg3.N) (p : Fin 5000) : Fin 50000 :=
  ⟨t.val * 5000 + p.val, by have := point_lt t; have := p.isLt; omega⟩

/-- The first message block at point `t` is rows `5000 t … 5000 t + 4999` of the first message array. -/
theorem mxblk_apply (c : Dev nD) (t : Fin cfg3.N) (p : Fin 5000) (k : Fin 128) :
    mxblk V c t (ix2 p k) = mxarr V c (ix2 (rowAt t p) k) := by
  obtain ⟨e00, e01, -⟩ := idx_facts t
  unfold mxblk mxarr iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The second message block at point `t` is the same rows of the second message array. -/
theorem meblk_apply (c : Dev nD) (t : Fin cfg3.N) (p : Fin 5000) (k : Fin 128) :
    meblk V c t (ix2 p k) = mearr V c (ix2 (rowAt t p) k) := by
  obtain ⟨-, -, e10, e11, -⟩ := idx_facts t
  unfold meblk mearr iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * k.val = k.val; omega

/-- The top weight block at every point is the whole top half of the weights. -/
theorem wtblk_apply (c : Dev nD) (t : Fin cfg3.N) (k : Fin 128) (q : Fin 128) :
    wtblk V c t (ix2 k q) = wtarr V c (ix2 k q) := by
  obtain ⟨-, -, -, -, e20, e21, -⟩ := idx_facts t
  unfold wtblk wtarr iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The bottom weight block at every point is the whole bottom half of the weights. -/
theorem wbblk_apply (c : Dev nD) (t : Fin cfg3.N) (k : Fin 128) (q : Fin 128) :
    wbblk V c t (ix2 k q) = wbarr V c (ix2 k q) := by
  obtain ⟨-, -, -, -, -, -, e30, e31, -⟩ := idx_facts t
  unfold wbblk wbarr iblk3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The bias block at every point is the whole bias row. -/
theorem bblk_apply (c : Dev nD) (t : Fin cfg3.N) (z : Fin 1) (q : Fin 128) :
    bblk V c t (ix2 z q) = barr V c (ix2 z q) := by
  obtain ⟨-, -, -, -, -, -, -, -, e40, e41, -⟩ := idx_facts t
  unfold bblk barr iblk3
  rw [View.read_apply]
  show V c (Pipeline.arrRef spec3 4) _ = V c (Pipeline.arrRef spec3 4) _
  refine congrArg _ (funext fun a => Fin.ext ?_)
  match a with
  | ⟨0, _⟩ => show win3_4.index t (0 : Fin 2) * 1 + 1 * z.val = z.val; omega
  | ⟨1, _⟩ => show win3_4.index t (1 : Fin 2) * 128 + 1 * q.val = q.val; omega

/-- Entry `(p, q)` of the output block at point `t` sits at row `5000 t + p`, column `q` of the output array. -/
theorem out_emb (t : Fin cfg3.N) (p : Fin 5000) (q : Fin 128) :
    (((cfg3.win 5).blk t).view.emb (ix2 p q) : S50000x128.Idx) = ix2 (rowAt t p) q := by
  obtain ⟨-, -, -, -, -, -, -, -, -, -, e50, e51⟩ := idx_facts t
  refine funext fun a => Fin.ext ?_
  match a with
  | ⟨0, _⟩ => show win3_5.index t (0 : Fin 2) * 5000 + 1 * p.val = t.val * 5000 + p.val; omega
  | ⟨1, _⟩ => show win3_5.index t (1 : Fin 2) * 128 + 1 * q.val = q.val; omega

/-- The graph-convolution layer then the rectifier of the region's entry arrays, as one array. -/
abbrev layerArr (c : Dev nD) : S50000x128.Idx → EReal :=
  dualReluArr (mxarr V c) (mearr V c) (wtarr V c) (wbarr V c) (fun h => barr V c (ix2 0 h))

/-- What point `t` writes back is block `t` of the layer's array: rows `5000 t … 5000 t + 4999`. -/
theorem flushed_eq (c : Dev nD) (t : Fin cfg3.N) :
    (dat3 V c).flushed 5 t = ((cfg3.win 5).blk t).view.read (Elt Ideal) (layerArr V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_apply (mxblk V c t) (meblk V c t) (wtblk V c t) (wbblk V c t) (bblk V c t) p q).trans ?_
  rw [View.read_apply]
  refine Eq.trans ?_ (congrArg (layerArr V c) (out_emb t p q)).symm
  refine Eq.trans ?_ (dualReluArr_ix2 (mxarr V c) (mearr V c) (wtarr V c) (wbarr V c) (fun h => barr V c (ix2 0 h)) (rowAt t p) q).symm
  unfold dualRelu
  simp only [mxblk_apply, meblk_apply, wtblk_apply, wbblk_apply, bblk_apply]

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v41).slice (win3_5.rect t)).set ↔ _
  rw [View.set_slice_whole, Rect.mem_set_unit]
  exact Iff.rfl

/-- The ten blocks of 5000 rows fill the 50000 rows: row `r` lies in the block of point `r / 5000`. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, lt_of_lt_of_eq (show (i 0).val / 5000 < 10 by omega) N_3.symm⟩, rfl⟩
  obtain ⟨-, -, -, -, -, -, -, -, -, -, e50, e51⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- After the region, the output array is the graph-convolution layer then the rectifier of the entry arrays. -/
theorem final3 (c : Dev nD) :
    (dat3 V c).arrAt 5 cfg3.N
      = dualReluArr (mxarr V c) (mearr V c) (wtarr V c) (wbarr V c) (fun h => barr V c (ix2 0 h)) :=
  (dat3 V c).arrAt_eq_of_cover 5 (layerArr V c) (fun t _ => flushed_eq V c t) cover

end Cert.KernelIdeal.Region3

end
-- ==== Proof.KStages.lean ====
/-
  The host side of the idealized kernel's program, stretch by stretch, as functions of arrays.

  Between its four regions the program slices the edge list into its source row and its destination row, wraps a
  negative source index by the number of nodes, gathers the rows of a node array at the source indices, widens
  them, and adds each edge's row into its destination node's row of an all-zero array (a segment sum by
  destination). Before each region it reshapes a bias vector to one row, and before the two graph-convolution
  regions it cuts the 256-row weight matrix into its top and bottom halves. After the last region it contracts the
  node array with a 128 × 1 matrix, adds a scalar bias, and normalises with a soft maximum over the nodes. Each
  function below spells those operations exactly as the program prints them.
-/
import proofs.«167609_j73443940762207_1_alg».proof.Proof.Gen.KernelIdeal

noncomputable section

namespace Cert.KernelIdeal.Stages

open Cert.KernelIdeal Cert.KernelIdeal.Gen Idealize.ShloMosaic Idealize.ShloMosaic.TcCoe

variable {F : FTy → Type} [FloatOps F]

/-- The edges' source row: row 0 of the edge list, as a vector. -/
def srcRow (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destination row: row 1 of the edge list, as a vector. -/
def dstRow (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The gather's start indices: a negative source index is wrapped by the number of nodes, then the vector is laid
    out as a column. -/
def srcIdx (ei : (⟨S2x800000, .i32⟩ : BufTy).Contents (Elt F)) : (⟨S800000x1, .i32⟩ : BufTy).Contents (Elt F) :=
  broadcastInDim S800000x1 ![0] bcast_S800000_S800000x1_0
    (select (cmpi .slt (srcRow (F := F) ei) (broadcastInDim S800000 ![] bcast_S_S800000 (constantI S_ 32 0#32)))
      (addi (srcRow (F := F) ei) (broadcastInDim S800000 ![] bcast_S_S800000 (constantI S_ 32 50000#32)))
      (srcRow (F := F) ei))

/-- The scatter's indices: the destination row as a column. -/
def dstIdx (ei : (⟨S2x800000, .i32⟩ : BufTy).Contents (Elt F)) : (⟨S800000x1, .i32⟩ : BufTy).Contents (Elt F) :=
  broadcastInDim S800000x1 ![0] bcast_S800000_S800000x1_0 (dstRow (F := F) ei)

/-- The all-zero node array the segment sums start from. -/
def zeros : (⟨S50000x128, .f32⟩ : BufTy).Contents (Elt F) :=
  broadcastInDim S50000x128 ![] bcast_S_S50000x128 (constant S_ .f32 0x00000000#32)

/-- The segment sum by destination: each edge's row added into its destination node's row. -/
def segSum (ei : (⟨S2x800000, .i32⟩ : BufTy).Contents (Elt F)) (u : (⟨S800000x128, .f32⟩ : BufTy).Contents (Elt F)) :
    (⟨S50000x128, .f32⟩ : BufTy).Contents (Elt F) :=
  Host.scatterAdd scatter_S50000x128_S800000x1_S800000x128_1_0_0_1 (zeros (F := F)) (dstIdx (F := F) ei) u

/-- A narrow per-edge array widened. -/
def widen (e : (⟨S800000x128, .bf16⟩ : BufTy).Contents (Elt F)) : (⟨S800000x128, .f32⟩ : BufTy).Contents (Elt F) :=
  extf .f32 e bitsLt_bf16_f32

/-- The rows of a narrow node array at the edges' source indices, widened. -/
def gatherSrc (ei : (⟨S2x800000, .i32⟩ : BufTy).Contents (Elt F)) (x : (⟨S50000x128, .bf16⟩ : BufTy).Contents (Elt F)) :
    (⟨S800000x128, .f32⟩ : BufTy).Contents (Elt F) :=
  widen (F := F) (Host.gather gather_S50000x128_S800000x1_S800000x128_1_0_n_n_0_1_1128 x (srcIdx (F := F) ei))

/-- A bias vector as one row. -/
def rowOf (b : (⟨S128, .f32⟩ : BufTy).Contents (Elt F)) : (⟨S1x128, .f32⟩ : BufTy).Contents (Elt F) :=
  shapeCast _ b shapeCasts_S128_S1x128

/-- The top 128 rows of a 256-row weight matrix. -/
def topW (w : (⟨S256x128, .f32⟩ : BufTy).Contents (Elt F)) : (⟨S128x128, .f32⟩ : BufTy).Contents (Elt F) :=
  extractStridedSlice S128x128 ![0, 0] w slices_S256x128_S128x128_0_0

/-- The bottom 128 rows of a 256-row weight matrix. -/
def botW (w : (⟨S256x128, .f32⟩ : BufTy).Contents (Elt F)) : (⟨S128x128, .f32⟩ : BufTy).Contents (Elt F) :=
  extractStridedSlice S128x128 ![128, 0] w slices_S256x128_S128x128_128_0

/-- The scores: the node array contracted with the output weights, plus the scalar bias, as a vector. -/
def scores (x : (⟨S50000x128, .f32⟩ : BufTy).Contents (Elt F)) (wo : (⟨S128x1, .f32⟩ : BufTy).Contents (Elt F))
    (bo : (⟨S1, .f32⟩ : BufTy).Contents (Elt F)) : (⟨S50000, .f32⟩ : BufTy).Contents (Elt F) :=
  shapeCast _ (addf (Host.dotGeneral dot_S50000x128_S128x1_S50000x1_1_0_0_1_n_n none x wo)
    (broadcastInDim S50000x1 ![0, 1] bcast_S1x1_S50000x1_0_1 (broadcastInDim S1x1 ![1] bcast_S1_S1x1_1 bo))) shapeCasts_S50000x1_S50000

/-- The soft maximum over the nodes of a score vector: shifted by its largest entry, exponentiated, normalised. -/
def softmax (s : (⟨S50000, .f32⟩ : BufTy).Contents (Elt F)) : (⟨S50000, .f32⟩ : BufTy).Contents (Elt F) :=
  let e : (⟨S50000, .f32⟩ : BufTy).Contents (Elt F) :=
    Host.exp (subf s (broadcastInDim S50000 ![0] bcast_S1_S50000_0 (broadcastInDim S1 ![] bcast_S_S1
      (maximumf (constant S_ .f32 0xFF800000#32)
        (Host.reduce FloatOps.maximumf s (constant S_ .f32 0xFF800000#32) reducesTo_S50000_S_d0 h_S_)))))
  Host.divf e (broadcastInDim S50000 ![0] bcast_S1_S50000_0 (broadcastInDim S1 ![] bcast_S_S1
    (Host.reduceAdd e (constant S_ .f32 0x00000000#32) reducesTo_S50000_S_d0 h_S_)))

/-- The program's last stretch: scores, then the soft maximum. -/
def tail (x : (⟨S50000x128, .f32⟩ : BufTy).Contents (Elt F)) (wo : (⟨S128x1, .f32⟩ : BufTy).Contents (Elt F))
    (bo : (⟨S1, .f32⟩ : BufTy).Contents (Elt F)) : (⟨S50000, .f32⟩ : BufTy).Contents (Elt F) :=
  softmax (F := F) (scores (F := F) x wo bo)

end Cert.KernelIdeal.Stages

end
-- ==== Proof.Fold.lean ====
/-
  What each region finds in its arrays, and what the program returns, read through the run's fold.

  The buffer contents at a segment boundary are a fold from the launch memory: a host stretch applies its
  operations, a region replaces its output array by what its write-backs leave and keeps every other buffer. Reading
  a buffer through the fold walks back: across a stretch that does not write it, across a region that does not own
  it, to the stretch or region that wrote it, or to the launch memory for an argument. Read so, the first two
  regions find arguments and a bias row; the graph-convolution regions find the segment sums by destination of the
  gathered node rows and of the edge attributes, the halves of the layer's weights and its bias row; and the result
  is the program's last stretch applied to the last region's output.
-/
import proofs.«167609_j73443940762207_1_alg».proof.Proof.KernelIdealFrame
import proofs.«167609_j73443940762207_1_alg».proof.Proof.KStages
import Idealize.ShloMosaic.Lib.StableHlo.Run

set_option maxRecDepth 16384

noncomputable section

namespace Cert.KernelIdeal.Fold

open Cert.KernelIdeal Cert.KernelIdeal.Gen Cert.KernelIdeal.GenP Cert.KernelIdeal.Stages
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The four regions' output arrays after their write-backs, by their literal types. -/
abbrev out0 (c : Dev nD) : (⟨S50000x128, .bf16⟩ : BufTy).Contents (Elt F) := (dat0 (V1 m ρ) c).arrAt 3 cfg0.N
abbrev out1 (c : Dev nD) : (⟨S800000x128, .bf16⟩ : BufTy).Contents (Elt F) := (dat1 (V3 m ρ) c).arrAt 3 cfg1.N
abbrev out2 (c : Dev nD) : (⟨S50000x128, .bf16⟩ : BufTy).Contents (Elt F) := (dat2 (V5 m ρ) c).arrAt 5 cfg2.N
abbrev out3 (c : Dev nD) : (⟨S50000x128, .f32⟩ : BufTy).Contents (Elt F) := (dat3 (V7 m ρ) c).arrAt 5 cfg3.N

/-- A buffer that no operation of a host stretch writes holds after the stretch what it held before: the stretch's
    result references are listed, and the buffer's reference differs from each of them. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The node transform's entry arrays -/
theorem V1_0 (c : Dev nD) : V1 m ρ c (Pipeline.arrRef spec0 0) = m ((c : Thread nD τ).loc main_arg0) :=
  calc W1 m ρ c (Proc.devRef .tc main_arg0)
    _ = W0 m ρ c (Proc.devRef .tc main_arg0) := by unwritten hostOps0
    _ = m ((c : Thread nD τ).loc main_arg0) := rfl
theorem V1_1 (c : Dev nD) : V1 m ρ c (Pipeline.arrRef spec0 1) = m ((c : Thread nD τ).loc main_arg2) :=
  calc W1 m ρ c (Proc.devRef .tc main_arg2)
    _ = W0 m ρ c (Proc.devRef .tc main_arg2) := by unwritten hostOps0
    _ = m ((c : Thread nD τ).loc main_arg2) := rfl
/-- The bias row is the first stretch's reshape of the bias vector. -/
theorem V1_2 (c : Dev nD) : V1 m ρ c (Pipeline.arrRef spec0 2) = rowOf (F := F) (m ((c : Thread nD τ).loc main_arg3)) := by
  show StableHlo.after hostOps0 (W0 m ρ c) (Proc.devRef .tc main_v4) = _
  after_results
  rfl

/-! ## The edge transform's entry arrays -/
theorem V3_0 (c : Dev nD) : V3 m ρ c (Pipeline.arrRef spec1 0) = m ((c : Thread nD τ).loc main_arg1) :=
  calc W3 m ρ c (Proc.devRef .tc main_arg1)
    _ = W2 m ρ c (Proc.devRef .tc main_arg1) := by unwritten hostOps1
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl
theorem V3_1 (c : Dev nD) : V3 m ρ c (Pipeline.arrRef spec1 1) = m ((c : Thread nD τ).loc main_arg4) :=
  calc W3 m ρ c (Proc.devRef .tc main_arg4)
    _ = W2 m ρ c (Proc.devRef .tc main_arg4) := by unwritten hostOps1
    _ = W1 m ρ c (Proc.devRef .tc main_arg4) := W2_of_ne m ρ c main_arg4 (by decide)
    _ = W0 m ρ c (Proc.devRef .tc main_arg4) := by unwritten hostOps0
    _ = m ((c : Thread nD τ).loc main_arg4) := rfl

/-- The second bias vector reaches the first region's exit as launched. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by unwritten hostOps0
    _ = m ((c : Thread nD τ).loc main_arg5) := rfl

/-- The bias row is the second stretch's reshape of the bias vector. -/
theorem V3_2 (c : Dev nD) : V3 m ρ c (Pipeline.arrRef spec1 2) = rowOf (F := F) (m ((c : Thread nD τ).loc main_arg5)) := by
  show StableHlo.after hostOps1 (W2 m ρ c) (Proc.devRef .tc main_v6) = _
  after_results
  rw [W2_arg5]
  rfl

/-! ## What the third stretch finds: the buffers at the edge transform's exit -/

/-- The layer's weights and its bias vector reach the second region's exit as launched. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by unwritten hostOps1
    _ = W1 m ρ c (Proc.devRef .tc main_arg6) := W2_of_ne m ρ c main_arg6 (by decide)
    _ = W0 m ρ c (Proc.devRef .tc main_arg6) := by unwritten hostOps0
    _ = m ((c : Thread nD τ).loc main_arg6) := rfl
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by unwritten hostOps1
    _ = W1 m ρ c (Proc.devRef .tc main_arg7) := W2_of_ne m ρ c main_arg7 (by decide)
    _ = W0 m ρ c (Proc.devRef .tc main_arg7) := by unwritten hostOps0
    _ = m ((c : Thread nD τ).loc main_arg7) := rfl

/-- The source row, cut from the edge list by the first stretch, is written by nothing later. -/
theorem W4_v1 (c : Dev nD) : W4 m ρ c (Proc.devRef .tc main_v1) = srcRow (F := F) (m ((c : Thread nD τ).loc main_arg12)) :=
  calc W4 m ρ c (Proc.devRef .tc main_v1)
    _ = W3 m ρ c (Proc.devRef .tc main_v1) := W4_of_ne m ρ c main_v1 (by decide)
    _ = W2 m ρ c (Proc.devRef .tc main_v1) := by unwritten hostOps1
    _ = W1 m ρ c (Proc.devRef .tc main_v1) := W2_of_ne m ρ c main_v1 (by decide)
    _ = srcRow (F := F) (m ((c : Thread nD τ).loc main_arg12)) := by
        show StableHlo.after hostOps0 (W0 m ρ c) (Proc.devRef .tc main_v1) = _
        after_results
        unfold srcRow
        rfl

/-- The destination row, likewise. -/
theorem W4_v3 (c : Dev nD) : W4 m ρ c (Proc.devRef .tc main_v3) = dstRow (F := F) (m ((c : Thread nD τ).loc main_arg12)) :=
  calc W4 m ρ c (Proc.devRef .tc main_v3)
    _ = W3 m ρ c (Proc.devRef .tc main_v3) := W4_of_ne m ρ c main_v3 (by decide)
    _ = W2 m ρ c (Proc.devRef .tc main_v3) := by unwritten hostOps1
    _ = W1 m ρ c (Proc.devRef .tc main_v3) := W2_of_ne m ρ c main_v3 (by decide)
    _ = dstRow (F := F) (m ((c : Thread nD τ).loc main_arg12)) := by
        show StableHlo.after hostOps0 (W0 m ρ c) (Proc.devRef .tc main_v3) = _
        after_results
        unfold dstRow
        rfl

/-- The node transform's output array is what its write-backs left; the second stretch and the edge transform leave it. -/
theorem W4_v5 (c : Dev nD) : W4 m ρ c (Proc.devRef .tc main_v5) = out0 m ρ c :=
  calc W4 m ρ c (Proc.devRef .tc main_v5)
    _ = W3 m ρ c (Proc.devRef .tc main_v5) := W4_of_ne m ρ c main_v5 (by decide)
    _ = W2 m ρ c (Proc.devRef .tc main_v5) := by unwritten hostOps1
    _ = out0 m ρ c := W2_arr m ρ c 3

/-- The edge transform's output array is what its write-backs left. -/
theorem W4_v7 (c : Dev nD) : W4 m ρ c (Proc.devRef .tc main_v7) = out1 m ρ c :=
  W4_arr m ρ c 3

/-! ## The first graph-convolution region's entry arrays -/

/-- The segment sum by destination of the node transform's rows gathered at the wrapped source indices. -/
theorem V5_0 (c : Dev nD) : V5 m ρ c (Pipeline.arrRef spec2 0)
    = segSum (F := F) (m ((c : Thread nD τ).loc main_arg12)) (gatherSrc (F := F) (m ((c : Thread nD τ).loc main_arg12)) (out0 m ρ c)) := by
  show StableHlo.after hostOps2 (W4 m ρ c) (Proc.devRef .tc main_v22) = _
  after_results_simp
  rw [W4_v1, W4_v3, W4_v5]
  unfold segSum gatherSrc widen srcIdx dstIdx zeros
  rfl
/-- The segment sum by destination of the widened edge transform's rows. -/
theorem V5_1 (c : Dev nD) : V5 m ρ c (Pipeline.arrRef spec2 1)
    = segSum (F := F) (m ((c : Thread nD τ).loc main_arg12)) (widen (F := F) (out1 m ρ c)) := by
  show StableHlo.after hostOps2 (W4 m ρ c) (Proc.devRef .tc main_v11) = _
  after_results
  rw [W4_v3, W4_v7]
  unfold segSum widen dstIdx zeros
  rfl
theorem V5_2 (c : Dev nD) : V5 m ρ c (Pipeline.arrRef spec2 2) = topW (F := F) (m ((c : Thread nD τ).loc main_arg6)) := by
  show StableHlo.after hostOps2 (W4 m ρ c) (Proc.devRef .tc main_v23) = _
  after_results
  rw [W4_arg6]
  rfl
theorem V5_3 (c : Dev nD) : V5 m ρ c (Pipeline.arrRef spec2 3) = botW (F := F) (m ((c : Thread nD τ).loc main_arg6)) := by
  show StableHlo.after hostOps2 (W4 m ρ c) (Proc.devRef .tc main_v24) = _
  after_results
  rw [W4_arg6]
  rfl
theorem V5_4 (c : Dev nD) : V5 m ρ c (Pipeline.arrRef spec2 4) = rowOf (F := F) (m ((c : Thread nD τ).loc main_arg7)) := by
  show StableHlo.after hostOps2 (W4 m ρ c) (Proc.devRef .tc main_v25) = _
  after_results
  rw [W4_arg7]
  rfl

end Cert.KernelIdeal.Fold

end
-- ==== Proof.Fold2.lean ====
/-
  The fold read at the last region's arrays and at the result.

  The second graph-convolution region finds, in its first array, the segment sum by destination of the rows the
  first graph-convolution region left, gathered at the edges' sources; in its second, the same segment sum of the
  edge attributes that the earlier region already read (no stretch or region in between writes it); then the halves
  of its own layer's weights and its bias row. The result buffer holds the program's last stretch applied to that
  region's output and two arguments.
-/
import proofs.«167609_j73443940762207_1_alg».proof.Proof.Fold

set_option maxRecDepth 16384

noncomputable section

namespace Cert.KernelIdeal.Fold

open Cert.KernelIdeal Cert.KernelIdeal.Gen Cert.KernelIdeal.GenP Cert.KernelIdeal.Stages
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer that no operation of a stretch writes holds after the stretch what it held before it: the stretch's
    operations each write one buffer, and the buffer read is none of them. -/
local macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Arguments the last two stretches read: no stretch and no region writes an argument -/

theorem W6_main_arg8 (c : Dev nD) : W6 m ρ c (Proc.devRef .tc main_arg8) = m ((c : Thread nD τ).loc main_arg8) :=
  calc W6 m ρ c (Proc.devRef .tc main_arg8)
    _ = W7 m ρ c (Proc.devRef .tc main_arg8) := Eq.symm (by unwritten hostOps3)
    _ = W8 m ρ c (Proc.devRef .tc main_arg8) := (W8_of_ne m ρ c main_arg8 (by decide)).symm
    _ = W9 m ρ c (Proc.devRef .tc main_arg8) := Eq.symm (by unwritten hostOps4)
    _ = m ((c : Thread nD τ).loc main_arg8) := W9_main_arg8 m ρ c

theorem W6_main_arg9 (c : Dev nD) : W6 m ρ c (Proc.devRef .tc main_arg9) = m ((c : Thread nD τ).loc main_arg9) :=
  calc W6 m ρ c (Proc.devRef .tc main_arg9)
    _ = W7 m ρ c (Proc.devRef .tc main_arg9) := Eq.symm (by unwritten hostOps3)
    _ = W8 m ρ c (Proc.devRef .tc main_arg9) := (W8_of_ne m ρ c main_arg9 (by decide)).symm
    _ = W9 m ρ c (Proc.devRef .tc main_arg9) := Eq.symm (by unwritten hostOps4)
    _ = m ((c : Thread nD τ).loc main_arg9) := W9_main_arg9 m ρ c

theorem W8_main_arg10 (c : Dev nD) : W8 m ρ c (Proc.devRef .tc main_arg10) = m ((c : Thread nD τ).loc main_arg10) :=
  calc W8 m ρ c (Proc.devRef .tc main_arg10)
    _ = W9 m ρ c (Proc.devRef .tc main_arg10) := Eq.symm (by unwritten hostOps4)
    _ = m ((c : Thread nD τ).loc main_arg10) := W9_main_arg10 m ρ c

theorem W8_main_arg11 (c : Dev nD) : W8 m ρ c (Proc.devRef .tc main_arg11) = m ((c : Thread nD τ).loc main_arg11) :=
  calc W8 m ρ c (Proc.devRef .tc main_arg11)
    _ = W9 m ρ c (Proc.devRef .tc main_arg11) := Eq.symm (by unwritten hostOps4)
    _ = m ((c : Thread nD τ).loc main_arg11) := W9_main_arg11 m ρ c

/-! ## The two graph-convolution regions' outputs, where the next stretch reads them -/

theorem W6_main_v26 (c : Dev nD) : W6 m ρ c (Proc.devRef .tc main_v26) = out2 m ρ c := W6_arr m ρ c 5

theorem W8_main_v41 (c : Dev nD) : W8 m ρ c (Proc.devRef .tc main_v41) = out3 m ρ c := W8_arr m ρ c 5

/-! ## The edge list's two rows: written by the first stretch, by nothing after it -/

theorem W1_main_v1 (c : Dev nD) :
    W1 m ρ c (Proc.devRef .tc main_v1) = srcRow (F := F) (m ((c : Thread nD τ).loc main_arg12)) := by
  show StableHlo.after hostOps0 (W0 m ρ c) (Proc.devRef .tc main_v1) = _
  after_results
  rfl

theorem W1_main_v3 (c : Dev nD) :
    W1 m ρ c (Proc.devRef .tc main_v3) = dstRow (F := F) (m ((c : Thread nD τ).loc main_arg12)) := by
  show StableHlo.after hostOps0 (W0 m ρ c) (Proc.devRef .tc main_v3) = _
  after_results
  rfl

theorem W6_main_v1 (c : Dev nD) :
    W6 m ρ c (Proc.devRef .tc main_v1) = srcRow (F := F) (m ((c : Thread nD τ).loc main_arg12)) :=
  calc W6 m ρ c (Proc.devRef .tc main_v1)
    _ = W5 m ρ c (Proc.devRef .tc main_v1) := W6_of_ne m ρ c main_v1 (by decide)
    _ = W4 m ρ c (Proc.devRef .tc main_v1) := by unwritten hostOps2
    _ = W3 m ρ c (Proc.devRef .tc main_v1) := W4_of_ne m ρ c main_v1 (by decide)
    _ = W2 m ρ c (Proc.devRef .tc main_v1) := by unwritten hostOps1
    _ = W1 m ρ c (Proc.devRef .tc main_v1) := W2_of_ne m ρ c main_v1 (by decide)
    _ = srcRow (F := F) (m ((c : Thread nD τ).loc main_arg12)) := W1_main_v1 m ρ c

theorem W6_main_v3 (c : Dev nD) :
    W6 m ρ c (Proc.devRef .tc main_v3) = dstRow (F := F) (m ((c : Thread nD τ).loc main_arg12)) :=
  calc W6 m ρ c (Proc.devRef .tc main_v3)
    _ = W5 m ρ c (Proc.devRef .tc main_v3) := W6_of_ne m ρ c main_v3 (by decide)
    _ = W4 m ρ c (Proc.devRef .tc main_v3) := by unwritten hostOps2
    _ = W3 m ρ c (Proc.devRef .tc main_v3) := W4_of_ne m ρ c main_v3 (by decide)
    _ = W2 m ρ c (Proc.devRef .tc main_v3) := by unwritten hostOps1
    _ = W1 m ρ c (Proc.devRef .tc main_v3) := W2_of_ne m ρ c main_v3 (by decide)
    _ = dstRow (F := F) (m ((c : Thread nD τ).loc main_arg12)) := W1_main_v3 m ρ c

/-! ## The last two stretches, over any contents before them

Each is read at the one buffer wanted, as the stretch's operations applied to what the buffers it reads held before. -/

theorem hostOps3_main_v37 (V : Valuation τ sig (Elt F)) (ei : (⟨S2x800000, .i32⟩ : BufTy).Contents (Elt F))
    (x : (⟨S50000x128, .bf16⟩ : BufTy).Contents (Elt F))
    (h1 : V (Proc.devRef .tc main_v1) = srcRow (F := F) ei) (h3 : V (Proc.devRef .tc main_v3) = dstRow (F := F) ei)
    (h26 : V (Proc.devRef .tc main_v26) = x) :
    StableHlo.after hostOps3 V (Proc.devRef .tc main_v37) = segSum (F := F) ei (gatherSrc (F := F) ei x) := by
  subst h26
  after_results
  rw [h1, h3]
  rfl

theorem hostOps4_main_v56 (V : Valuation τ sig (Elt F)) (x : (⟨S50000x128, .f32⟩ : BufTy).Contents (Elt F))
    (wo : (⟨S128x1, .f32⟩ : BufTy).Contents (Elt F)) (bo : (⟨S1, .f32⟩ : BufTy).Contents (Elt F))
    (h41 : V (Proc.devRef .tc main_v41) = x) (h10 : V (Proc.devRef .tc main_arg10) = wo)
    (h11 : V (Proc.devRef .tc main_arg11) = bo) :
    StableHlo.after hostOps4 V (Proc.devRef .tc main_v56) = tail (F := F) x wo bo := by
  subst h41 h10 h11
  after_results_simp
  rfl

/-! ## The second graph-convolution region's entry arrays -/
theorem V7_0 (c : Dev nD) : V7 m ρ c (Pipeline.arrRef spec3 0)
    = segSum (F := F) (m ((c : Thread nD τ).loc main_arg12)) (gatherSrc (F := F) (m ((c : Thread nD τ).loc main_arg12)) (out2 m ρ c)) := by
  exact hostOps3_main_v37 (W6 m ρ c) _ _ (W6_main_v1 m ρ c) (W6_main_v3 m ρ c) (W6_main_v26 m ρ c)
theorem V7_1 (c : Dev nD) : V7 m ρ c (Pipeline.arrRef spec3 1)
    = segSum (F := F) (m ((c : Thread nD τ).loc main_arg12)) (widen (F := F) (out1 m ρ c)) :=
  calc V7 m ρ c (Pipeline.arrRef spec3 1)
    _ = W6 m ρ c (Proc.devRef .tc main_v11) := by unwritten hostOps3
    _ = V5 m ρ c (Pipeline.arrRef spec2 1) :=
          (W6_arr m ρ c 1).trans (((dat2 (V5 m ρ) c).arrAt_in 1 rfl _).trans (A_eq2 (V5 m ρ) c 1))
    _ = segSum (F := F) (m ((c : Thread nD τ).loc main_arg12)) (widen (F := F) (out1 m ρ c)) := V5_1 m ρ c
theorem V7_2 (c : Dev nD) : V7 m ρ c (Pipeline.arrRef spec3 2) = topW (F := F) (m ((c : Thread nD τ).loc main_arg8)) := by
  show StableHlo.after hostOps3 (W6 m ρ c) (Proc.devRef .tc main_v38) = _
  after_results
  rw [W6_main_arg8]
  rfl
theorem V7_3 (c : Dev nD) : V7 m ρ c (Pipeline.arrRef spec3 3) = botW (F := F) (m ((c : Thread nD τ).loc main_arg8)) := by
  show StableHlo.after hostOps3 (W6 m ρ c) (Proc.devRef .tc main_v39) = _
  after_results
  rw [W6_main_arg8]
  rfl
theorem V7_4 (c : Dev nD) : V7 m ρ c (Pipeline.arrRef spec3 4) = rowOf (F := F) (m ((c : Thread nD τ).loc main_arg9)) := by
  show StableHlo.after hostOps3 (W6 m ρ c) (Proc.devRef .tc main_v40) = _
  after_results
  rw [W6_main_arg9]
  rfl

/-! ## The result -/
theorem W9_result (c : Dev nD) : W9 m ρ c (Proc.devRef .tc main_v56)
    = tail (F := F) (out3 m ρ c) (m ((c : Thread nD τ).loc main_arg10)) (m ((c : Thread nD τ).loc main_arg11)) := by
  exact hostOps4_main_v56 (W8 m ρ c) _ _ _ (W8_main_v41 m ρ c) (W8_main_arg10 m ρ c) (W8_main_arg11 m ρ c)

end Cert.KernelIdeal.Fold

end
-- ==== Proof.RefStages.lean ====
/-
  The reference's four dense stages, each as one array of the specification.

  The node and edge transforms are a contraction over the input row, a broadcast bias and a maximum with zero:
  `linRelu` of the arguments. A graph-convolution stage contracts the row `[m_x[r,·], m_e[r,·]]` of the two
  aggregated messages laid side by side against the whole 256-row weight matrix; the joined row's first 128 entries
  are `m_x`'s and its last 128 are `m_e`'s, so the contraction over 256 terms is the contraction of `m_x` against
  the top half of the weights plus the contraction of `m_e` against the bottom half: `dualRelu`.
-/
import proofs.«167609_j73443940762207_1_alg».proof.Proof.Gen.ReferenceIdeal.Read
import proofs.«167609_j73443940762207_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx
open GraphConvSpec

/-- The node transform is the linear layer then the rectifier of the node features, the weights and the bias. -/
theorem v8_eq (x0 : (⟨S50000x128, .f32⟩ : BufTy).Contents (Elt Ideal)) (x2 : (⟨S128x128, .f32⟩ : BufTy).Contents (Elt Ideal)) (x3 : (⟨S128, .f32⟩ : BufTy).Contents (Elt Ideal)) :
    val_main_v8 (F := Ideal) x0 x2 x3 = linReluArr x0 x2 (fun h => x3 (ix1 h)) := by
  funext i
  obtain ⟨r, h, rfl⟩ : ∃ (r : Fin 50000) (h : Fin 128), i = ix2 r h := ⟨i 0, i 1, eq_ix2 i⟩
  rw [linReluArr_ix2, val_main_v8_apply, val_main_v7_apply, val_main_v4_apply, val_main_v6_apply, val_main_v5_apply,
    val_main_call0_v0_apply, val_main_call0_cst_apply]
  -- the contraction reads row r of the features and column h of the weights; the bias is read at h
  have el : ∀ k : Fin 128, lidx_main_v4 (ix2 r h) k = ix2 r k := fun k =>
    funext fun a => Fin.ext (by match a with | ⟨0, _⟩ => rfl | ⟨1, _⟩ => rfl)
  have er : ∀ k : Fin 128, ridx_main_v4 (ix2 r h) k = ix2 k h := fun k =>
    funext fun a => Fin.ext (by match a with | ⟨0, _⟩ => rfl | ⟨1, _⟩ => rfl)
  have eb : idx_main_v5 (idx_main_v6 (ix2 r h)) = ix1 h :=
    funext fun a => Fin.ext (by match a with | ⟨0, _⟩ => rfl)
  simp only [el, er, eb, Ideal.maximumf_def, Ideal.addf_def, Ideal.ofBits_def]
  rfl

/-- The edge transform is the linear layer then the rectifier of the edge features, the weights and the bias. -/
theorem v13_eq (x1 : (⟨S800000x32, .f32⟩ : BufTy).Contents (Elt Ideal)) (x4 : (⟨S32x128, .f32⟩ : BufTy).Contents (Elt Ideal)) (x5 : (⟨S128, .f32⟩ : BufTy).Contents (Elt Ideal)) :
    val_main_v13 (F := Ideal) x1 x4 x5 = linReluArr x1 x4 (fun h => x5 (ix1 h)) := by
  funext i
  obtain ⟨r, h, rfl⟩ : ∃ (r : Fin 800000) (h : Fin 128), i = ix2 r h := ⟨i 0, i 1, eq_ix2 i⟩
  rw [linReluArr_ix2, val_main_v13_apply, val_main_v12_apply, val_main_v9_apply, val_main_v11_apply, val_main_v10_apply,
    val_main_call1_v0_apply, val_main_call1_cst_apply]
  -- the contraction reads row r of the features and column h of the weights; the bias is read at h
  have el : ∀ k : Fin 32, lidx_main_v9 (ix2 r h) k = ix2 r k := fun k =>
    funext fun a => Fin.ext (by match a with | ⟨0, _⟩ => rfl | ⟨1, _⟩ => rfl)
  have er : ∀ k : Fin 32, ridx_main_v9 (ix2 r h) k = ix2 k h := fun k =>
    funext fun a => Fin.ext (by match a with | ⟨0, _⟩ => rfl | ⟨1, _⟩ => rfl)
  have eb : idx_main_v10 (idx_main_v11 (ix2 r h)) = ix1 h :=
    funext fun a => Fin.ext (by match a with | ⟨0, _⟩ => rfl)
  simp only [el, er, eb, Ideal.maximumf_def, Ideal.addf_def, Ideal.ofBits_def]
  rfl

/-- The contraction of the joined row `[m_x[r,·], m_e[r,·]]` against the whole 256-row weight matrix: the sum over
    the 256 columns is the sum over the first 128, where the joined row is `m_x`'s and the weights are the top half,
    plus the sum over the last 128, where the joined row is `m_e`'s and the weights are the bottom half. -/
theorem joined_contraction (mx me : S50000x128.Idx → EReal) (w : S256x128.Idx → EReal)
    (hc : Shape.Concatenates [S50000x128, S50000x128] S50000x256 1) (r : Fin 50000) (h : Fin 128) :
    ∑ k : Fin 256, concatenate S50000x256 1 [⟨S50000x128, mx⟩, ⟨S50000x128, me⟩] hc (ix2 r k) * w (ix2 k h)
      = (∑ k : Fin 128, mx (ix2 r k) * topHalf w (ix2 k h)) + ∑ k : Fin 128, me (ix2 r k) * botHalf w (ix2 k h) := by
  rw [sum_split_256]
  congr 1
  · -- a column below 128 lies in the first piece, at the same column
    refine Finset.sum_congr rfl fun k _ => ?_
    rw [concatenate_pair_apply_left 1 mx me hc (ix2 r (⟨k.val, Nat.lt_of_lt_of_le k.isLt (by decide)⟩ : Fin 256)) rfl (ix2 r k)
      (fun b => by match b with | ⟨0, _⟩ => rfl | ⟨1, _⟩ => rfl)]
    rfl
  · -- a column from 128 on lies in the second piece, 128 columns earlier
    refine Finset.sum_congr rfl fun k _ => ?_
    rw [concatenate_pair_apply_right 1 mx me hc (ix2 r (⟨128 + k.val, Nat.add_lt_add_left k.isLt 128⟩ : Fin 256)) rfl rfl (ix2 r k)
      (fun b hb => by match b with | ⟨0, _⟩ => rfl | ⟨1, _⟩ => exact absurd rfl hb)
      (Nat.add_comm k.val 128)]
    rfl

/-- A graph-convolution stage at row r, column h, over its two messages as variables: the contraction of the joined
    row against the whole weight matrix, plus the bias, floored at zero, is `dualRelu` of the two messages against
    the two halves of the weights. -/
theorem joined_stage (mx me : S50000x128.Idx → EReal) (w : S256x128.Idx → EReal) (b : S128.Idx → EReal)
    (hc : Shape.Concatenates [S50000x128, S50000x128] S50000x256 1) (r : Fin 50000) (h : Fin 128) :
    max ((∑ k : Fin 256, concatenate S50000x256 1 [⟨S50000x128, mx⟩, ⟨S50000x128, me⟩] hc (ix2 r k) * w (ix2 k h))
        + b (ix1 h)) zeroWord
      = dualRelu mx me (topHalf w) (botHalf w) (fun h => b (ix1 h)) r h := by
  rw [joined_contraction]
  rfl

/-- The first graph-convolution stage, over its two aggregated messages and the halves of its weights. -/
theorem v32_eq (x0 : (⟨S50000x128, .f32⟩ : BufTy).Contents (Elt Ideal)) (x1 : (⟨S800000x32, .f32⟩ : BufTy).Contents (Elt Ideal)) (x2 : (⟨S128x128, .f32⟩ : BufTy).Contents (Elt Ideal)) (x3 : (⟨S128, .f32⟩ : BufTy).Contents (Elt Ideal))
    (x4 : (⟨S32x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal))
    (x12 : (⟨S2x800000, .i32⟩ : BufTy).Contents (Elt Ideal)) :
    val_main_v32 (F := Ideal) x0 x1 x2 x3 x4 x5 x6 x7 x12
      = dualReluArr (val_main_v23 (F := Ideal) x0 x2 x3 x12) (val_main_v26 (F := Ideal) x1 x4 x5 x12)
          (topHalf x6) (botHalf x6) (fun h => x7 (ix1 h)) := by
  funext i
  obtain ⟨r, h, rfl⟩ : ∃ (r : Fin 50000) (h : Fin 128), i = ix2 r h := ⟨i 0, i 1, eq_ix2 i⟩
  rw [dualReluArr_ix2, val_main_v32_apply, val_main_v31_apply, val_main_v28_apply, val_main_v30_apply, val_main_v29_apply,
    val_main_call2_v0_apply, val_main_call2_cst_apply]
  -- the joined row is the two messages side by side; name them, so that neither is opened
  unfold val_main_v27
  generalize val_main_v23 (F := Ideal) x0 x2 x3 x12 = mx
  generalize val_main_v26 (F := Ideal) x1 x4 x5 x12 = me
  -- the contraction reads row r of the joined row and column h of the weights; the bias is read at h
  have el : ∀ k : Fin 256, lidx_main_v28 (ix2 r h) k = ix2 r k := fun k =>
    funext fun a => Fin.ext (by match a with | ⟨0, _⟩ => rfl | ⟨1, _⟩ => rfl)
  have er : ∀ k : Fin 256, ridx_main_v28 (ix2 r h) k = ix2 k h := fun k =>
    funext fun a => Fin.ext (by match a with | ⟨0, _⟩ => rfl | ⟨1, _⟩ => rfl)
  have eb : idx_main_v29 (idx_main_v30 (ix2 r h)) = ix1 h :=
    funext fun a => Fin.ext (by match a with | ⟨0, _⟩ => rfl)
  simp only [el, er, eb, Ideal.maximumf_def, Ideal.addf_def, Ideal.ofBits_def]
  exact joined_stage mx me x6 x7 _ r h

/-- The second graph-convolution stage, over its two aggregated messages and the halves of its weights. -/
theorem v51_eq (x0 : (⟨S50000x128, .f32⟩ : BufTy).Contents (Elt Ideal)) (x1 : (⟨S800000x32, .f32⟩ : BufTy).Contents (Elt Ideal)) (x2 : (⟨S128x128, .f32⟩ : BufTy).Contents (Elt Ideal)) (x3 : (⟨S128, .f32⟩ : BufTy).Contents (Elt Ideal))
    (x4 : (⟨S32x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal)) (x12 : (⟨S2x800000, .i32⟩ : BufTy).Contents (Elt Ideal)) :
    val_main_v51 (F := Ideal) x0 x1 x2 x3 x4 x5 x6 x7 x8 x9 x12
      = dualReluArr (val_main_v42 (F := Ideal) x0 x1 x2 x3 x4 x5 x6 x7 x12) (val_main_v45 (F := Ideal) x1 x4 x5 x12)
          (topHalf x8) (botHalf x8) (fun h => x9 (ix1 h)) := by
  funext i
  obtain ⟨r, h, rfl⟩ : ∃ (r : Fin 50000) (h : Fin 128), i = ix2 r h := ⟨i 0, i 1, eq_ix2 i⟩
  rw [dualReluArr_ix2, val_main_v51_apply, val_main_v50_apply, val_main_v47_apply, val_main_v49_apply, val_main_v48_apply,
    val_main_call3_v0_apply, val_main_call3_cst_apply]
  -- the joined row is the two messages side by side; name them, so that neither is opened
  unfold val_main_v46
  generalize val_main_v42 (F := Ideal) x0 x1 x2 x3 x4 x5 x6 x7 x12 = mx
  generalize val_main_v45 (F := Ideal) x1 x4 x5 x12 = me
  -- the contraction reads row r of the joined row and column h of the weights; the bias is read at h
  have el : ∀ k : Fin 256, lidx_main_v47 (ix2 r h) k = ix2 r k := fun k =>
    funext fun a => Fin.ext (by match a with | ⟨0, _⟩ => rfl | ⟨1, _⟩ => rfl)
  have er : ∀ k : Fin 256, ridx_main_v47 (ix2 r h) k = ix2 k h := fun k =>
    funext fun a => Fin.ext (by match a with | ⟨0, _⟩ => rfl | ⟨1, _⟩ => rfl)
  have eb : idx_main_v48 (idx_main_v49 (ix2 r h)) = ix1 h :=
    funext fun a => Fin.ext (by match a with | ⟨0, _⟩ => rfl)
  simp only [el, er, eb, Ideal.maximumf_def, Ideal.addf_def, Ideal.ofBits_def]
  exact joined_stage mx me x8 x9 _ r h

end Cert.ReferenceIdeal.Stages

end
-- ==== Proof.Bridge.lean ====
/-
  The idealized kernel's result is the reference's, stage by stage.

  Both programs compute: the node transform x₁ and the edge transform e (a linear layer and a rectifier each); the
  segment sum m_e of e by destination; then twice a graph-convolution layer: gather the rows of the node array at
  the edges' sources, segment-sum them by destination into m_x, and take the rectified linear layer of [m_x, m_e];
  last a linear layer to one score per node and a soft maximum over the nodes. The kernel keeps some arrays in a
  narrower float format and widens them again, which over the extended reals changes nothing; it reshapes each bias
  to a row where the reference broadcasts it; and it multiplies m_x and m_e by the two halves of the layer's weights
  where the reference multiplies their concatenation by the whole matrix. Each stage of the kernel is read off its
  run (a region's output array as the layer of its entry arrays; an entry array through the run's fold), each stage
  of the reference off its run, and both are the same array of the specification. Gathers, segment sums and the
  last stretch are the same operations in both programs and are carried whole, never opened.
-/
import proofs.«167609_j73443940762207_1_alg».proof.Proof.KernelIdealRun
import proofs.«167609_j73443940762207_1_alg».proof.Proof.Region0
import proofs.«167609_j73443940762207_1_alg».proof.Proof.Region1
import proofs.«167609_j73443940762207_1_alg».proof.Proof.Region2
import proofs.«167609_j73443940762207_1_alg».proof.Proof.Region3
import proofs.«167609_j73443940762207_1_alg».proof.Proof.Fold
import proofs.«167609_j73443940762207_1_alg».proof.Proof.Fold2
import proofs.«167609_j73443940762207_1_alg».proof.Proof.RefStages
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.KernelIdeal.Stages Cert.ReferenceIdeal.Read
open GraphConvSpec

/-! ## Layouts read at an index -/

section Layout
variable {F : FTy → Type} [FloatOps F]

/-- A bias vector reshaped to one row holds, at column `h` of that row, the vector's entry `h`. -/
theorem rowOf_apply (b : (⟨Cert.KernelIdeal.S128, .f32⟩ : BufTy).Contents (Elt F)) (h : Fin 128) :
    rowOf (F := F) b (ix2 (0 : Fin 1) h) = b (ix1 h) := by
  unfold rowOf
  exact shapeCast_apply b _ (ix2 (0 : Fin 1) h) (ix1 h)
    (by rewrite [Shape.rowMajor_val_one, Shape.rowMajor_val_two]; show h.val = 0 * 128 + h.val; omega)

end Layout

/-- The top slice of a 256-row weight matrix is its top half. -/
theorem topW_eq (w : (⟨Cert.KernelIdeal.S256x128, .f32⟩ : BufTy).Contents (Elt Ideal)) : topW (F := Ideal) w = topHalf w := by
  funext i
  unfold topW topHalf
  exact extractStridedSlice_apply _ w _ i _ (fun a => match a with
    | ⟨0, _⟩ => by show (i 0).val = 0 + (i 0).val; omega
    | ⟨1, _⟩ => by show (i 1).val = 0 + (i 1).val; omega)

/-- The bottom slice of a 256-row weight matrix is its bottom half. -/
theorem botW_eq (w : (⟨Cert.KernelIdeal.S256x128, .f32⟩ : BufTy).Contents (Elt Ideal)) : botW (F := Ideal) w = botHalf w := by
  funext i
  unfold botW botHalf
  exact extractStridedSlice_apply _ w _ i _ (fun a => match a with
    | ⟨0, _⟩ => by show 128 + (i 0).val = 128 + (i 0).val; rfl
    | ⟨1, _⟩ => by show (i 1).val = 0 + (i 1).val; omega)

/-- Over the extended reals, widening a narrow array changes no entry. -/
theorem widen_eq (e : Cert.KernelIdeal.S800000x128.Idx → EReal) : widen (F := Ideal) e = e := rfl

/-! ## The index vectors, the zero array and the last stretch are the reference's, term for term -/

section Same
variable {F : FTy → Type} [FloatOps F]

theorem dstIdx_v22 (ei : (⟨Cert.KernelIdeal.S2x800000, .i32⟩ : BufTy).Contents (Elt F)) : dstIdx (F := F) ei = val_main_v22 (F := F) ei := rfl
theorem dstIdx_v25 (ei : (⟨Cert.KernelIdeal.S2x800000, .i32⟩ : BufTy).Contents (Elt F)) : dstIdx (F := F) ei = val_main_v25 (F := F) ei := rfl
theorem dstIdx_v41 (ei : (⟨Cert.KernelIdeal.S2x800000, .i32⟩ : BufTy).Contents (Elt F)) : dstIdx (F := F) ei = val_main_v41 (F := F) ei := rfl
theorem dstIdx_v44 (ei : (⟨Cert.KernelIdeal.S2x800000, .i32⟩ : BufTy).Contents (Elt F)) : dstIdx (F := F) ei = val_main_v44 (F := F) ei := rfl
theorem srcIdx_v19 (ei : (⟨Cert.KernelIdeal.S2x800000, .i32⟩ : BufTy).Contents (Elt F)) : srcIdx (F := F) ei = val_main_v19 (F := F) ei := rfl
theorem srcIdx_v38 (ei : (⟨Cert.KernelIdeal.S2x800000, .i32⟩ : BufTy).Contents (Elt F)) : srcIdx (F := F) ei = val_main_v38 (F := F) ei := rfl
theorem zeros_v21 : zeros (F := F) = val_main_v21 (F := F) := rfl
theorem zeros_v24 : zeros (F := F) = val_main_v24 (F := F) := rfl
theorem zeros_v40 : zeros (F := F) = val_main_v40 (F := F) := rfl
theorem zeros_v43 : zeros (F := F) = val_main_v43 (F := F) := rfl

end Same

/-! ## The last stretch is the reference's, term for term -/

section SameTail
variable {F : FTy → Type} [FloatOps F]

theorem tail_v66 (x0 : (⟨Cert.KernelIdeal.S50000x128, .f32⟩ : BufTy).Contents (Elt F)) (x1 : (⟨Cert.KernelIdeal.S800000x32, .f32⟩ : BufTy).Contents (Elt F)) (x2 : (⟨Cert.KernelIdeal.S128x128, .f32⟩ : BufTy).Contents (Elt F)) (x3 : (⟨Cert.KernelIdeal.S128, .f32⟩ : BufTy).Contents (Elt F)) (x4 : (⟨Cert.KernelIdeal.S32x128, .f32⟩ : BufTy).Contents (Elt F)) (x5 : (⟨Cert.KernelIdeal.S128, .f32⟩ : BufTy).Contents (Elt F)) (x6 : (⟨Cert.KernelIdeal.S256x128, .f32⟩ : BufTy).Contents (Elt F)) (x7 : (⟨Cert.KernelIdeal.S128, .f32⟩ : BufTy).Contents (Elt F)) (x8 : (⟨Cert.KernelIdeal.S256x128, .f32⟩ : BufTy).Contents (Elt F)) (x9 : (⟨Cert.KernelIdeal.S128, .f32⟩ : BufTy).Contents (Elt F)) (x10 : (⟨Cert.KernelIdeal.S128x1, .f32⟩ : BufTy).Contents (Elt F)) (x11 : (⟨Cert.KernelIdeal.S1, .f32⟩ : BufTy).Contents (Elt F)) (x12 : (⟨Cert.KernelIdeal.S2x800000, .i32⟩ : BufTy).Contents (Elt F)) :
    tail (F := F) (val_main_v51 (F := F) x0 x1 x2 x3 x4 x5 x6 x7 x8 x9 x12) x10 x11 = val_main_v66 (F := F) x0 x1 x2 x3 x4 x5 x6 x7 x8 x9 x10 x11 x12 := rfl

end SameTail

/-! ## The stages -/

section Stages
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The launch's argument arrays, by their literal types. -/
abbrev arg0 : (⟨Cert.KernelIdeal.S50000x128, .f32⟩ : BufTy).Contents (Elt Ideal) := m ((c : Thread Cert.KernelIdeal.nD Cert.KernelIdeal.τ).loc Cert.KernelIdeal.main_arg0)
abbrev arg1 : (⟨Cert.KernelIdeal.S800000x32, .f32⟩ : BufTy).Contents (Elt Ideal) := m ((c : Thread Cert.KernelIdeal.nD Cert.KernelIdeal.τ).loc Cert.KernelIdeal.main_arg1)
abbrev arg2 : (⟨Cert.KernelIdeal.S128x128, .f32⟩ : BufTy).Contents (Elt Ideal) := m ((c : Thread Cert.KernelIdeal.nD Cert.KernelIdeal.τ).loc Cert.KernelIdeal.main_arg2)
abbrev arg3 : (⟨Cert.KernelIdeal.S128, .f32⟩ : BufTy).Contents (Elt Ideal) := m ((c : Thread Cert.KernelIdeal.nD Cert.KernelIdeal.τ).loc Cert.KernelIdeal.main_arg3)
abbrev arg4 : (⟨Cert.KernelIdeal.S32x128, .f32⟩ : BufTy).Contents (Elt Ideal) := m ((c : Thread Cert.KernelIdeal.nD Cert.KernelIdeal.τ).loc Cert.KernelIdeal.main_arg4)
abbrev arg5 : (⟨Cert.KernelIdeal.S128, .f32⟩ : BufTy).Contents (Elt Ideal) := m ((c : Thread Cert.KernelIdeal.nD Cert.KernelIdeal.τ).loc Cert.KernelIdeal.main_arg5)
abbrev arg6 : (⟨Cert.KernelIdeal.S256x128, .f32⟩ : BufTy).Contents (Elt Ideal) := m ((c : Thread Cert.KernelIdeal.nD Cert.KernelIdeal.τ).loc Cert.KernelIdeal.main_arg6)
abbrev arg7 : (⟨Cert.KernelIdeal.S128, .f32⟩ : BufTy).Contents (Elt Ideal) := m ((c : Thread Cert.KernelIdeal.nD Cert.KernelIdeal.τ).loc Cert.KernelIdeal.main_arg7)
abbrev arg8 : (⟨Cert.KernelIdeal.S256x128, .f32⟩ : BufTy).Contents (Elt Ideal) := m ((c : Thread Cert.KernelIdeal.nD Cert.KernelIdeal.τ).loc Cert.KernelIdeal.main_arg8)
abbrev arg9 : (⟨Cert.KernelIdeal.S128, .f32⟩ : BufTy).Contents (Elt Ideal) := m ((c : Thread Cert.KernelIdeal.nD Cert.KernelIdeal.τ).loc Cert.KernelIdeal.main_arg9)
abbrev arg10 : (⟨Cert.KernelIdeal.S128x1, .f32⟩ : BufTy).Contents (Elt Ideal) := m ((c : Thread Cert.KernelIdeal.nD Cert.KernelIdeal.τ).loc Cert.KernelIdeal.main_arg10)
abbrev arg11 : (⟨Cert.KernelIdeal.S1, .f32⟩ : BufTy).Contents (Elt Ideal) := m ((c : Thread Cert.KernelIdeal.nD Cert.KernelIdeal.τ).loc Cert.KernelIdeal.main_arg11)
abbrev arg12 : (⟨Cert.KernelIdeal.S2x800000, .i32⟩ : BufTy).Contents (Elt Ideal) := m ((c : Thread Cert.KernelIdeal.nD Cert.KernelIdeal.τ).loc Cert.KernelIdeal.main_arg12)

/-- The node transform: the first region's output is the reference's rectified linear layer of the node features. -/
theorem out0_eq : Cert.KernelIdeal.Fold.out0 m ρ c = val_main_v8 (F := Ideal) (arg0 m c) (arg2 m c) (arg3 m c) := by
  refine (Cert.KernelIdeal.Region0.final0 (Cert.KernelIdeal.GenP.V1 m ρ) c).trans ?_
  rw [Cert.ReferenceIdeal.Stages.v8_eq]
  have h0 : Cert.KernelIdeal.Region0.xarr (Cert.KernelIdeal.GenP.V1 m ρ) c = arg0 m c := Cert.KernelIdeal.Fold.V1_0 m ρ c
  have h1 : Cert.KernelIdeal.Region0.warr (Cert.KernelIdeal.GenP.V1 m ρ) c = arg2 m c := Cert.KernelIdeal.Fold.V1_1 m ρ c
  have h2 : (fun h : Fin 128 => Cert.KernelIdeal.Region0.barr (Cert.KernelIdeal.GenP.V1 m ρ) c (ix2 0 h)) = fun h => arg3 m c (ix1 h) :=
    funext fun h => (congrFun (Cert.KernelIdeal.Fold.V1_2 m ρ c) (ix2 (0 : Fin 1) h)).trans (rowOf_apply _ h)
  rw [h0, h1, h2]

/-- The edge transform: the second region's output is the reference's rectified linear layer of the edge features. -/
theorem out1_eq : Cert.KernelIdeal.Fold.out1 m ρ c = val_main_v13 (F := Ideal) (arg1 m c) (arg4 m c) (arg5 m c) := by
  refine (Cert.KernelIdeal.Region1.final1 (Cert.KernelIdeal.GenP.V3 m ρ) c).trans ?_
  rw [Cert.ReferenceIdeal.Stages.v13_eq]
  have h0 : Cert.KernelIdeal.Region1.xarr (Cert.KernelIdeal.GenP.V3 m ρ) c = arg1 m c := Cert.KernelIdeal.Fold.V3_0 m ρ c
  have h1 : Cert.KernelIdeal.Region1.warr (Cert.KernelIdeal.GenP.V3 m ρ) c = arg4 m c := Cert.KernelIdeal.Fold.V3_1 m ρ c
  have h2 : (fun h : Fin 128 => Cert.KernelIdeal.Region1.barr (Cert.KernelIdeal.GenP.V3 m ρ) c (ix2 0 h)) = fun h => arg5 m c (ix1 h) :=
    funext fun h => (congrFun (Cert.KernelIdeal.Fold.V3_2 m ρ c) (ix2 (0 : Fin 1) h)).trans (rowOf_apply _ h)
  rw [h0, h1, h2]

/-- The edge attributes' segment sum by destination is the reference's (the first layer's copy). -/
theorem me1_eq : segSum (F := Ideal) (arg12 m c) (widen (F := Ideal) (Cert.KernelIdeal.Fold.out1 m ρ c))
    = val_main_v26 (F := Ideal) (arg1 m c) (arg4 m c) (arg5 m c) (arg12 m c) := by
  rw [out1_eq, widen_eq]
  unfold segSum val_main_v26
  rw [zeros_v24, dstIdx_v25]
  rfl

/-- The same segment sum is the reference's second layer's copy too. -/
theorem me2_eq : segSum (F := Ideal) (arg12 m c) (widen (F := Ideal) (Cert.KernelIdeal.Fold.out1 m ρ c))
    = val_main_v45 (F := Ideal) (arg1 m c) (arg4 m c) (arg5 m c) (arg12 m c) := by
  rw [out1_eq, widen_eq]
  unfold segSum val_main_v45
  rw [zeros_v43, dstIdx_v44]
  rfl

/-- The first layer's aggregated node message: the gathered rows of the node transform, summed by destination. -/
theorem mx1_eq : segSum (F := Ideal) (arg12 m c) (gatherSrc (F := Ideal) (arg12 m c) (Cert.KernelIdeal.Fold.out0 m ρ c))
    = val_main_v23 (F := Ideal) (arg0 m c) (arg2 m c) (arg3 m c) (arg12 m c) := by
  rw [out0_eq]
  unfold segSum gatherSrc val_main_v23 val_main_v20
  rw [zeros_v21, dstIdx_v22, srcIdx_v19]
  rfl

/-- The first graph-convolution layer: the third region's output is the reference's. -/
theorem out2_eq : Cert.KernelIdeal.Fold.out2 m ρ c = val_main_v32 (F := Ideal) (arg0 m c) (arg1 m c) (arg2 m c) (arg3 m c) (arg4 m c) (arg5 m c) (arg6 m c) (arg7 m c) (arg12 m c) := by
  refine (Cert.KernelIdeal.Region2.final2 (Cert.KernelIdeal.GenP.V5 m ρ) c).trans ?_
  rw [Cert.ReferenceIdeal.Stages.v32_eq]
  have h0 : Cert.KernelIdeal.Region2.mxarr (Cert.KernelIdeal.GenP.V5 m ρ) c = val_main_v23 (F := Ideal) (arg0 m c) (arg2 m c) (arg3 m c) (arg12 m c) :=
    (Cert.KernelIdeal.Fold.V5_0 m ρ c).trans (mx1_eq m ρ c)
  have h1 : Cert.KernelIdeal.Region2.mearr (Cert.KernelIdeal.GenP.V5 m ρ) c = val_main_v26 (F := Ideal) (arg1 m c) (arg4 m c) (arg5 m c) (arg12 m c) :=
    (Cert.KernelIdeal.Fold.V5_1 m ρ c).trans (me1_eq m ρ c)
  have h2 : Cert.KernelIdeal.Region2.wtarr (Cert.KernelIdeal.GenP.V5 m ρ) c = topHalf (arg6 m c) := (Cert.KernelIdeal.Fold.V5_2 m ρ c).trans (topW_eq _)
  have h3 : Cert.KernelIdeal.Region2.wbarr (Cert.KernelIdeal.GenP.V5 m ρ) c = botHalf (arg6 m c) := (Cert.KernelIdeal.Fold.V5_3 m ρ c).trans (botW_eq _)
  have h4 : (fun h : Fin 128 => Cert.KernelIdeal.Region2.barr (Cert.KernelIdeal.GenP.V5 m ρ) c (ix2 0 h)) = fun h => arg7 m c (ix1 h) :=
    funext fun h => (congrFun (Cert.KernelIdeal.Fold.V5_4 m ρ c) (ix2 (0 : Fin 1) h)).trans (rowOf_apply _ h)
  rw [h0, h1, h2, h3, h4]

/-- The second layer's aggregated node message: the gathered rows of the first layer's output, summed by destination. -/
theorem mx2_eq : segSum (F := Ideal) (arg12 m c) (gatherSrc (F := Ideal) (arg12 m c) (Cert.KernelIdeal.Fold.out2 m ρ c))
    = val_main_v42 (F := Ideal) (arg0 m c) (arg1 m c) (arg2 m c) (arg3 m c) (arg4 m c) (arg5 m c) (arg6 m c) (arg7 m c) (arg12 m c) := by
  rw [out2_eq]
  unfold segSum gatherSrc val_main_v42 val_main_v39
  rw [zeros_v40, dstIdx_v41, srcIdx_v38]
  rfl

/-- The second graph-convolution layer: the fourth region's output is the reference's. -/
theorem out3_eq : Cert.KernelIdeal.Fold.out3 m ρ c = val_main_v51 (F := Ideal) (arg0 m c) (arg1 m c) (arg2 m c) (arg3 m c) (arg4 m c) (arg5 m c) (arg6 m c) (arg7 m c) (arg8 m c) (arg9 m c) (arg12 m c) := by
  refine (Cert.KernelIdeal.Region3.final3 (Cert.KernelIdeal.GenP.V7 m ρ) c).trans ?_
  rw [Cert.ReferenceIdeal.Stages.v51_eq]
  have h0 : Cert.KernelIdeal.Region3.mxarr (Cert.KernelIdeal.GenP.V7 m ρ) c = val_main_v42 (F := Ideal) (arg0 m c) (arg1 m c) (arg2 m c) (arg3 m c) (arg4 m c) (arg5 m c) (arg6 m c) (arg7 m c) (arg12 m c) :=
    (Cert.KernelIdeal.Fold.V7_0 m ρ c).trans (mx2_eq m ρ c)
  have h1 : Cert.KernelIdeal.Region3.mearr (Cert.KernelIdeal.GenP.V7 m ρ) c = val_main_v45 (F := Ideal) (arg1 m c) (arg4 m c) (arg5 m c) (arg12 m c) :=
    (Cert.KernelIdeal.Fold.V7_1 m ρ c).trans (me2_eq m ρ c)
  have h2 : Cert.KernelIdeal.Region3.wtarr (Cert.KernelIdeal.GenP.V7 m ρ) c = topHalf (arg8 m c) := (Cert.KernelIdeal.Fold.V7_2 m ρ c).trans (topW_eq _)
  have h3 : Cert.KernelIdeal.Region3.wbarr (Cert.KernelIdeal.GenP.V7 m ρ) c = botHalf (arg8 m c) := (Cert.KernelIdeal.Fold.V7_3 m ρ c).trans (botW_eq _)
  have h4 : (fun h : Fin 128 => Cert.KernelIdeal.Region3.barr (Cert.KernelIdeal.GenP.V7 m ρ) c (ix2 0 h)) = fun h => arg9 m c (ix1 h) :=
    funext fun h => (congrFun (Cert.KernelIdeal.Fold.V7_4 m ρ c) (ix2 (0 : Fin 1) h)).trans (rowOf_apply _ h)
  rw [h0, h1, h2, h3, h4]

/-- THE RESULT: what the idealized kernel's run leaves in its result buffer is the reference's result term of the
    same arguments. -/
theorem result_eq : Cert.KernelIdeal.GenP.W9 m ρ c (Proc.devRef .tc Cert.KernelIdeal.main_v56)
    = val_main_v66 (F := Ideal) (arg0 m c) (arg1 m c) (arg2 m c) (arg3 m c) (arg4 m c) (arg5 m c) (arg6 m c) (arg7 m c) (arg8 m c) (arg9 m c) (arg10 m c) (arg11 m c) (arg12 m c) := by
  rw [Cert.KernelIdeal.Fold.W9_result, out3_eq]
  exact tail_v66 (arg0 m c) (arg1 m c) (arg2 m c) (arg3 m c) (arg4 m c) (arg5 m c) (arg6 m c) (arg7 m c) (arg8 m c) (arg9 m c) (arg10 m c) (arg11 m c) (arg12 m c)

end Stages

end Cert.Bridge

end
-- ==== Proof.lean ====
/-
  A graph neural network with two message-passing layers, as four tiled kernels among host operations, against the
  same network written with whole-array operations; equal over the extended reals.

  Both compute x₁ = relu(X · W_n + b_n) on the nodes and e = relu(E · W_e + b_e) on the edges; m_e, the sum of e
  over the edges entering each node; then, twice, m_x (the sum over the edges entering a node of the current node
  array's row at the edge's source) and the next node array relu([m_x, m_e] · W + b); last one score per node,
  x₃ · W_o + b_o, and the soft maximum of the scores over the nodes. The kernels compute each dense layer in tiles of
  whole rows (each output row depends on its own input row only, so the tiles' write-backs assemble the layer's
  array), keep x₁, e and x₂ in a narrower float format (the identity on the extended reals), and form
  [m_x, m_e] · W as m_x · W_top + m_e · W_bot, which is the same sum of 256 products taken in two halves:
  associativity and commutativity of addition only, so nothing is asked of the inputs beyond the stated
  precondition, and that is never opened. The three frames are the programs' runs with the results dropped; the
  idealized kernel is the kernel's own text read over the extended reals, so nothing is owed for it.
-/
import proofs.«167609_j73443940762207_1_alg».proof.Defs
import proofs.«167609_j73443940762207_1_alg».proof.Proof.Gen.Kernel
import proofs.«167609_j73443940762207_1_alg».proof.Proof.Gen.KernelIdeal
import proofs.«167609_j73443940762207_1_alg».proof.Proof.Gen.ReferenceIdeal
import proofs.«167609_j73443940762207_1_alg».proof.Proof.Gen.Pre_finite_inputs
import proofs.«167609_j73443940762207_1_alg».proof.Proof.KernelFrame
import proofs.«167609_j73443940762207_1_alg».proof.Proof.KernelIdealFrame
import proofs.«167609_j73443940762207_1_alg».proof.Proof.KernelIdealRun
import proofs.«167609_j73443940762207_1_alg».proof.Proof.Gen.ReferenceIdeal.Run
import proofs.«167609_j73443940762207_1_alg».proof.Proof.Gen.ReferenceIdeal.Read
import proofs.«167609_j73443940762207_1_alg».proof.Proof.Bridge
import Idealize.ShloMosaic.Adequacy
import Idealize.ShloMosaic.Init

noncomputable section

namespace Cert.Proof

open Idealize.ShloMosaic Idealize.ShloMosaic.TcCoe Idealize.SL.Sem

/-- The kernel, word by word: every fair execution ends, nothing faulting, the arguments as launched. -/
theorem frame_kernel : Cert.frame_Kernel := fun m ρ _ => Cert.Kernel.GenP.frame m ρ

/-- The same of the kernel read over the extended reals. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- Run from memories that agree on the arguments, the idealized kernel ends with its result buffer at what its
    run's fold leaves there, and the reference with its result at its composed term of the arguments; the two are
    one array (`Cert.Bridge.result_eq`). -/
theorem algebraic : Cert.algebraic_KernelIdeal_ReferenceIdeal := by
  intro m ρ m' ρ' _ hagree
  refine ⟨fun c => Cert.KernelIdeal.GenP.W9 m ρ c (Proc.devRef .tc Cert.KernelIdeal.main_v56),
    Cert.KernelIdeal.GenP.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v66_eq, e0, e1, e2, e3, e4, e5, e6, e7, e8, e9, e10, e11, e12]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
